-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S32x10 .f32) (main_arg6 : FVec F S32x10 .f32) (main_arg7 : FVec F S10 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x10 .f32 := Host.absf main_arg5
  let main_cst_6 : FVec F S_ .f32 := constant S_ .f32 0x7F800000#32
  let main_v20 : FVec F S32x10 .f32 := broadcastInDim S32x10 ![] bcast_S_S32x10 main_cst_6
  let main_v21 : IVec S32x10 1 := cmpf .olt main_v19 main_v20
  let main_c_7 : IVec S_ 1 := constantI S_ 1 1#1
  let main_v22 : IVec S_ 1 := (fun x v => Host.reduce IntOp.andi x v reducesTo_S32x10_S_d0_1 h_S_) main_v21 main_c_7
  let main_v23 : IVec S_ 1 := andi main_v18 main_v22
  let main_v24 : FVec F S32x10 .f32 := Host.absf main_arg6
  let main_cst_8 : FVec F S_ .f32 := constant S_ .f32 0x7F800000#32
  let main_v25 : FVec F S32x10 .f32 := broadcastInDim S32x10 ![] bcast_S_S32x10 main_cst_8
  let main_v26 : IVec S32x10 1 := cmpf .olt main_v24 main_v25
  let main_c_9 : IVec S_ 1 := constantI S_ 1 1#1
  let main_v27 : IVec S_ 1 := (fun x v => Host.reduce IntOp.andi x v reducesTo_S32x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x64 .f32) (main_arg1 : IVec S2x3200000 32) (main_arg2 : FVec F S64x32 .f32) (main_arg3 : FVec F S64x32 .f32) (main_arg4 : FVec F S32 .f32) (main_arg5 : FVec F S32x10 .f32) (main_arg6 : FVec F S32x10 .f32) (main_arg7 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64x32 .f32 := Host.absf main_arg3
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_v13 main_v16
-- ==== Kernel.lean ====
abbrev S100000x64 : Shape := ⟨2, ![100000, 64]⟩
abbrev S2x3200000 : Shape := ⟨2, ![2, 3200000]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S1x32 : Shape := ⟨2, ![1, 32]⟩
abbrev S100000x32 : Shape := ⟨2, ![100000, 32]⟩
abbrev S5000x64 : Shape := ⟨2, ![5000, 64]⟩
abbrev S5000x32 : Shape := ⟨2, ![5000, 32]⟩
abbrev S3200000x32 : Shape := ⟨2, ![3200000, 32]⟩
abbrev S1x10 : Shape := ⟨2, ![1, 10]⟩
abbrev S100000x10 : Shape := ⟨2, ![100000, 10]⟩
abbrev S5000x10 : Shape := ⟨2, ![5000, 10]⟩
abbrev S5000 : Shape := ⟨1, ![5000]⟩
abbrev S5000x1 : Shape := ⟨2, ![5000, 1]⟩

abbrev nBuf : Space → Nat
  | .hbm => 92
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S64x32, .f32⟩
  | .hbm, ⟨3, _⟩ => ⟨S64x32, .f32⟩
  | .hbm, ⟨4, _⟩ => ⟨S32, .f32⟩
  | .hbm, ⟨5, _⟩ => ⟨S32x10, .f32⟩
  | .hbm, ⟨6, _⟩ => ⟨S32x10, .f32⟩
  | .hbm, ⟨7, _⟩ => ⟨S10, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S3200000, .i1⟩
  | .hbm, ⟨13, _⟩ => ⟨S_, .f32⟩
  | .hbm, ⟨14, _⟩ => ⟨S_, .f32⟩
  | .hbm, ⟨15, _⟩ => ⟨S3200000, .f32⟩
  | .hbm, ⟨16, _⟩ => ⟨S3200000, .f32⟩
  | .hbm, ⟨17, _⟩ => ⟨S3200000, .f32⟩
  | .hbm, ⟨18, _⟩ => ⟨S_, .f32⟩
  | .hbm, ⟨19, _⟩ => ⟨S100000, .f32⟩
  | .hbm, ⟨20, _⟩ => ⟨S3200000x1, .i32⟩
  | .hbm, ⟨21, _⟩ => ⟨S3200000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000, .f32⟩
  | .hbm, ⟨43, _⟩ => ⟨S3200000, .f32⟩
  | .hbm, ⟨44, _⟩ => ⟨S3200000, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000, .f32⟩
  | .hbm, ⟨54, _⟩ => ⟨S3200000, .f32⟩
  | .hbm, ⟨55, _⟩ => ⟨S3200000, .f32⟩
  | .hbm, ⟨56, _⟩ => ⟨S3200000x1, .f32⟩
  | .hbm, ⟨57, _⟩ => ⟨S_, .i32⟩
  | .hbm, ⟨58, _⟩ => ⟨S3200000, .i32⟩
  | .hbm, ⟨59, _⟩ => ⟨S3200000, .i1⟩
  | .hbm, ⟨60, _⟩ => ⟨S_, .i32⟩
  | .hbm, ⟨61, _⟩ => ⟨S3200000, .i32⟩
  | .hbm, ⟨62, _⟩ => ⟨S3200000, .i32⟩
  | .hbm, ⟨63, _⟩ => ⟨S3200000, .i32⟩
  | .hbm, ⟨64, _⟩ => ⟨S3200000x1, .i32⟩
  | .hbm, ⟨65, _⟩ => ⟨S3200000x64, .f32⟩
  | .hbm, ⟨66, _⟩ => ⟨S3200000x64, .f32⟩
  | .hbm, ⟨67, _⟩ => ⟨S3200000x64, .f32⟩
  | .hbm, ⟨68, _⟩ => ⟨S_, .f32⟩
  | .hbm, ⟨69, _⟩ => ⟨S100000x64, .f32⟩
  | .hbm, ⟨70, _⟩ => ⟨S3200000x1, .i32⟩
  | .hbm, ⟨71, _⟩ => ⟨S100000x64, .f32⟩
  | .hbm, ⟨72, _⟩ => ⟨S1x32, .f32⟩
  | .hbm, ⟨73, _⟩ => ⟨S100000x32, .f32⟩
  | .hbm, ⟨74, _⟩ => ⟨S3200000x1, .f32⟩
  | .hbm, ⟨75, _⟩ => ⟨S_, .i32⟩
  | .hbm, ⟨76, _⟩ => ⟨S3200000, .i32⟩
  | .hbm, ⟨77, _⟩ => ⟨S3200000, .i1⟩
  | .hbm, ⟨78, _⟩ => ⟨S_, .i32⟩
  | .hbm, ⟨79, _⟩ => ⟨S3200000, .i32⟩
  | .hbm, ⟨80, _⟩ => ⟨S3200000, .i32⟩
  | .hbm, ⟨81, _⟩ => ⟨S3200000, .i32⟩
  | .hbm, ⟨82, _⟩ => ⟨S3200000x1, .i32⟩
  | .hbm, ⟨83, _⟩ => ⟨S3200000x32, .f32⟩
  | .hbm, ⟨84, _⟩ => ⟨S3200000x32, .f32⟩
  | .hbm, ⟨85, _⟩ => ⟨S3200000x32, .f32⟩
  | .hbm, ⟨86, _⟩ => ⟨S_, .f32⟩
  | .hbm, ⟨87, _⟩ => ⟨S100000x32, .f32⟩
  | .hbm, ⟨88, _⟩ => ⟨S3200000x1, .i32⟩
  | .hbm, ⟨89, _⟩ => ⟨S100000x32, .f32⟩
  | .hbm, ⟨90, _⟩ => ⟨S1x10, .f32⟩
  | .hbm, ⟨91, _⟩ => ⟨S100000x10, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x32, .f32⟩
  | .local _ .vmem, ⟨5, _⟩ => ⟨S64x32, .f32⟩
  | .local _ .vmem, ⟨6, _⟩ => ⟨S1x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S32x10, .f32⟩
  | .local _ .vmem, ⟨14, _⟩ => ⟨S32x10, .f32⟩
  | .local _ .vmem, ⟨15, _⟩ => ⟨S1x10, .f32⟩
  | .local _ .vmem, ⟨16, _⟩ => ⟨S5000x10, .f32⟩
  | .local _ .vmem, ⟨17, _⟩ => ⟨S5000x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_c_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_v50 : Ref sig .tc := ⟨.hbm, 76, rfl⟩
abbrev main_v51 : Ref sig .tc := ⟨.hbm, 77, rfl⟩
abbrev main_c_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x10 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S32_S1x32 : S32.ShapeCasts S1x32
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S10_S1x10 : S10.ShapeCasts S1x10
  shapeCasts_S5000x32_S5000x32 : S5000x32.ShapeCasts S5000x32
  inb_S32x10_S32x10_0_0 : ∀ a, (![0, 0] : Fin 2 → Nat) a + S32x10.size a ≤ S32x10.size a
  h_S32x10 : 0 < S32x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reduces_S5000x10_S5000 : S5000x10.Reduces [1] S5000
  shapeCasts_S5000_S5000x1 : S5000.ShapeCasts S5000x1
  broadcasts_S5000x1_S5000x10 : S5000x1.Broadcasts S5000x10
  inb_S5000x10_S5000x10_0_0 : ∀ a, (![0, 0] : Fin 2 → Nat) a + S5000x10.size a ≤ S5000x10.size a
  h_S5000x10 : 0 < S5000x10.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x32_S5000x32_1_0_0_1_n_n_wf : DotDims.WF S5000x64 S64x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x10_S5000x10_1_0_0_1_n_n_wf : DotDims.WF S5000x32 S32x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S100000x32.size a
  hwx0_5 : ∀ i : grid0.Coords, EltTy.bits .f32 = 32 ∨ (Rect.block (s := S100000x32) S5000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x10.size a ≤ S32x10.size a
  hwx1_2 : ∀ i : grid1.Coords, EltTy.bits .f32 = 32 ∨ (Rect.block (s := S32x10) S32x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x10.size a ≤ S32x10.size a
  hwx1_3 : ∀ i : grid1.Coords, EltTy.bits .f32 = 32 ∨ (Rect.block (s := S32x10) S32x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x10.size a ≤ S1x10.size a
  hwx1_4 : ∀ i : grid1.Coords, EltTy.bits .f32 = 32 ∨ (Rect.block (s := S1x10) S1x10.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x10.size a ≤ S100000x10.size a
  hwx1_5 : ∀ i : grid1.Coords, EltTy.bits .f32 = 32 ∨ (Rect.block (s := S100000x10) S5000x10.size (cc1_transform_5 i) (hinb1_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x10_S5000x10_1_0_0_1_n_n : DotDims S5000x32 S32x10 S5000x10 where
  lhsContracting := [1]
  rhsContracting := [0]
  lhsNonContracting := [0]
  rhsNonContracting := [1]
  lhsBatch := []
  rhsBatch := []
  wf := dot_S5000x32_S32x10_S5000x10_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v47) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v48) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v61) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S32x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v62) S1x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v63) S5000x10.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S100000x32 : Shape := ⟨2, ![100000, 32]⟩
abbrev S1x32 : Shape := ⟨2, ![1, 32]⟩
abbrev S3200000x32 : Shape := ⟨2, ![3200000, 32]⟩
abbrev S100000x10 : Shape := ⟨2, ![100000, 10]⟩
abbrev S1x10 : Shape := ⟨2, ![1, 10]⟩
abbrev S100000x1 : Shape := ⟨2, ![100000, 1]⟩

abbrev nBuf : Space → Nat
  | .hbm => 162
  | .vmem => 0
  | .smem => 0
  | _ => 0

abbrev hbmTy0_0 (i : Nat) : BufTy := match i % 128 with
  | 0 => ⟨S100000x64, .f32⟩
  | 1 => ⟨S2x3200000, .i32⟩
  | 2 => ⟨S64x32, .f32⟩
  | 3 => ⟨S64x32, .f32⟩
  | 4 => ⟨S32, .f32⟩
  | 5 => ⟨S32x10, .f32⟩
  | 6 => ⟨S32x10, .f32⟩
  | 7 => ⟨S10, .f32⟩
  | 8 => ⟨S1x3200000, .i32⟩
  | 9 => ⟨S3200000, .i32⟩
  | 10 => ⟨S1x3200000, .i32⟩
  | 11 => ⟨S3200000, .i32⟩
  | 12 => ⟨S3200000, .i1⟩
  | 13 => ⟨S_, .f32⟩
  | 14 => ⟨S_, .f32⟩
  | 15 => ⟨S3200000, .f32⟩
  | 16 => ⟨S3200000, .f32⟩
  | 17 => ⟨S3200000, .f32⟩
  | 18 => ⟨S_, .f32⟩
  | 19 => ⟨S100000, .f32⟩
  | 20 => ⟨S3200000x1, .i32⟩
  | 21 => ⟨S3200000, .f32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3200000, .i32⟩
  | 36 => ⟨S3200000, .i1⟩
  | 37 => ⟨S_, .i32⟩
  | 38 => ⟨S3200000, .i32⟩
  | 39 => ⟨S3200000, .i32⟩
  | 40 => ⟨S3200000, .i32⟩
  | 41 => ⟨S3200000x1, .i32⟩
  | 42 => ⟨S3200000, .f32⟩
  | 43 => ⟨S3200000, .f32⟩
  | 44 => ⟨S3200000, .f32⟩
  | 45 => ⟨S_, .i32⟩
  | 46 => ⟨S3200000, .i32⟩
  | 47 => ⟨S3200000, .i1⟩
  | 48 => ⟨S_, .i32⟩
  | 49 => ⟨S3200000, .i32⟩
  | 50 => ⟨S3200000, .i32⟩
  | 51 => ⟨S3200000, .i32⟩
  | 52 => ⟨S3200000x1, .i32⟩
  | 53 => ⟨S3200000, .f32⟩
  | 54 => ⟨S3200000, .f32⟩
  | 55 => ⟨S3200000, .f32⟩
  | 56 => ⟨S3200000x1, .f32⟩
  | 57 => ⟨S_, .i32⟩
  | 58 => ⟨S3200000, .i32⟩
  | 59 => ⟨S3200000, .i1⟩
  | 60 => ⟨S_, .i32⟩
  | 61 => ⟨S3200000, .i32⟩
  | 62 => ⟨S3200000, .i32⟩
  | 63 => ⟨S3200000, .i32⟩
  | 64 => ⟨S3200000x1, .i32⟩
  | 65 => ⟨S3200000x64, .f32⟩
  | 66 => ⟨S3200000x64, .f32⟩
  | 67 => ⟨S3200000x64, .f32⟩
  | 68 => ⟨S_, .f32⟩
  | 69 => ⟨S100000x64, .f32⟩
  | 70 => ⟨S3200000x1, .i32⟩
  | 71 => ⟨S100000x64, .f32⟩
  | 72 => ⟨S100000x32, .f32⟩
  | 73 => ⟨S100000x32, .f32⟩
  | 74 => ⟨S100000x32, .f32⟩
  | 75 => ⟨S1x32, .f32⟩
  | 76 => ⟨S100000x32, .f32⟩
  | 77 => ⟨S100000x32, .f32⟩
  | 78 => ⟨S_, .f32⟩
  | 79 => ⟨S100000x32, .f32⟩
  | 80 => ⟨S100000x32, .f32⟩
  | 81 => ⟨S3200000, .i1⟩
  | 82 => ⟨S_, .f32⟩
  | 83 => ⟨S_, .f32⟩
  | 84 => ⟨S3200000, .f32⟩
  | 85 => ⟨S3200000, .f32⟩
  | 86 => ⟨S3200000, .f32⟩
  | 87 => ⟨S_, .f32⟩
  | 88 => ⟨S100000, .f32⟩
  | 89 => ⟨S3200000x1, .i32⟩
  | 90 => ⟨S3200000, .f32⟩
  | 91 => ⟨S100000, .f32⟩
  | 92 => ⟨S_, .f32⟩
  | 93 => ⟨S100000, .f32⟩
  | 94 => ⟨S100000, .i1⟩
  | 95 => ⟨S_, .f32⟩
  | 96 => ⟨S100000, .f32⟩
  | 97 => ⟨S100000, .f32⟩
  | 98 => ⟨S100000, .f32⟩
  | 99 => ⟨S_, .f32⟩
  | 100 => ⟨S_, .f32⟩
  | 101 => ⟨S100000, .f32⟩
  | 102 => ⟨S100000, .f32⟩
  | 103 => ⟨S_, .i32⟩
  | 104 => ⟨S3200000, .i32⟩
  | 105 => ⟨S3200000, .i1⟩
  | 106 => ⟨S_, .i32⟩
  | 107 => ⟨S3200000, .i32⟩
  | 108 => ⟨S3200000, .i32⟩
  | 109 => ⟨S3200000, .i32⟩
  | 110 => ⟨S3200000x1, .i32⟩
  | 111 => ⟨S3200000, .f32⟩
  | 112 => ⟨S3200000, .f32⟩
  | 113 => ⟨S3200000, .f32⟩
  | 114 => ⟨S_, .i32⟩
  | 115 => ⟨S3200000, .i32⟩
  | 116 => ⟨S3200000, .i1⟩
  | 117 => ⟨S_, .i32⟩
  | 118 => ⟨S3200000, .i32⟩
  | 119 => ⟨S3200000, .i32⟩
  | 120 => ⟨S3200000, .i32⟩
  | 121 => ⟨S3200000x1, .i32⟩
  | 122 => ⟨S3200000, .f32⟩
  | 123 => ⟨S3200000, .f32⟩
  | 124 => ⟨S3200000, .f32⟩
  | 125 => ⟨S3200000x1, .f32⟩
  | 126 => ⟨S_, .i32⟩
  | 127 => ⟨S3200000, .i32⟩
  | _ => ⟨S100000x64, .f32⟩

abbrev hbmTy0_1 (i : Nat) : BufTy := match i % 128 with
  | 0 => ⟨S3200000, .i1⟩
  | 1 => ⟨S_, .i32⟩
  | 2 => ⟨S3200000, .i32⟩
  | 3 => ⟨S3200000, .i32⟩
  | 4 => ⟨S3200000, .i32⟩
  | 5 => ⟨S3200000x1, .i32⟩
  | 6 => ⟨S3200000x32, .f32⟩
  | 7 => ⟨S3200000x32, .f32⟩
  | 8 => ⟨S3200000x32, .f32⟩
  | 9 => ⟨S_, .f32⟩
  | 10 => ⟨S100000x32, .f32⟩
  | 11 => ⟨S3200000x1, .i32⟩
  | 12 => ⟨S100000x32, .f32⟩
  | 13 => ⟨S100000x10, .f32⟩
  | 14 => ⟨S100000x10, .f32⟩
  | 15 => ⟨S100000x10, .f32⟩
  | 16 => ⟨S1x10, .f32⟩
  | 17 => ⟨S100000x10, .f32⟩
  | 18 => ⟨S100000x10, .f32⟩
  | 19 => ⟨S_, .f32⟩
  | 20 => ⟨S100000, .f32⟩
  | 21 => ⟨S_, .f32⟩
  | 22 => ⟨S100000, .f32⟩
  | 23 => ⟨S100000, .f32⟩
  | 24 => ⟨S100000x1, .f32⟩
  | 25 => ⟨S100000x10, .f32⟩
  | 26 => ⟨S100000x10, .f32⟩
  | 27 => ⟨S100000x10, .f32⟩
  | 28 => ⟨S_, .f32⟩
  | 29 => ⟨S100000, .f32⟩
  | 30 => ⟨S100000x1, .f32⟩
  | 31 => ⟨S100000x1, .f32⟩
  | 32 => ⟨S100000x10, .f32⟩
  | 33 => ⟨S100000x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_c_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call2_cst : Ref sig .tc := ⟨.hbm, 78, rfl⟩
abbrev main_call2_v0 : Ref sig .tc := ⟨.hbm, 79, rfl⟩
abbrev main_v53 : Ref sig .tc := ⟨.hbm, 80, rfl⟩
abbrev main_v54 : Ref sig .tc := ⟨.hbm, 81, rfl⟩
abbrev main_cst_11 : Ref sig .tc := ⟨.hbm, 82, rfl⟩
abbrev main_cst_12 : Ref sig .tc := ⟨.hbm, 83, rfl⟩
abbrev main_call3_v0 : Ref sig .tc := ⟨.hbm, 84, rfl⟩
abbrev main_call3_v1 : Ref sig .tc := ⟨.hbm, 85, rfl⟩
abbrev main_v55 : Ref sig .tc := ⟨.hbm, 86, rfl⟩
abbrev main_cst_13 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_14 : Ref sig .tc := ⟨.hbm, 92, rfl⟩
abbrev main_v60 : Ref sig .tc := ⟨.hbm, 93, rfl⟩
abbrev main_v61 : Ref sig .tc := ⟨.hbm, 94, rfl⟩
abbrev main_cst_15 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_16 : Ref sig .tc := ⟨.hbm, 99, rfl⟩
abbrev main_call4_v0 : Ref sig .tc := ⟨.hbm, 100, rfl⟩
abbrev main_call4_v1 : Ref sig .tc := ⟨.hbm, 101, rfl⟩
abbrev main_v65 : Ref sig .tc := ⟨.hbm, 102, rfl⟩
abbrev main_c_17 : Ref sig .tc := ⟨.hbm, 103, rfl⟩
abbrev main_v66 : Ref sig .tc := ⟨.hbm, 104, rfl⟩
abbrev main_v67 : Ref sig .tc := ⟨.hbm, 105, rfl⟩
abbrev main_c_18 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_c_19 : Ref sig .tc := ⟨.hbm, 114, rfl⟩
abbrev main_v75 : Ref sig .tc := ⟨.hbm, 115, rfl⟩
abbrev main_v76 : Ref sig .tc := ⟨.hbm, 116, rfl⟩
abbrev main_c_20 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_c_21 : Ref sig .tc := ⟨.hbm, 126, rfl⟩
abbrev main_v85 : Ref sig .tc := ⟨.hbm, 127, rfl⟩
abbrev main_v86 : Ref sig .tc := ⟨.hbm, 128, rfl⟩
abbrev main_c_22 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_23 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_call5_cst : Ref sig .tc := ⟨.hbm, 147, rfl⟩
abbrev main_call5_v0 : Ref sig .tc := ⟨.hbm, 148, rfl⟩
abbrev main_call5_cst_0 : Ref sig .tc := ⟨.hbm, 149, rfl⟩
abbrev main_call5_v1 : Ref sig .tc := ⟨.hbm, 150, rfl⟩
abbrev main_call5_v2 : Ref sig .tc := ⟨.hbm, 151, rfl⟩
abbrev main_call5_v3 : Ref sig .tc := ⟨.hbm, 152, rfl⟩
abbrev main_call5_v4 : Ref sig .tc := ⟨.hbm, 153, rfl⟩
abbrev main_call5_v5 : Ref sig .tc := ⟨.hbm, 154, rfl⟩
abbrev main_call5_v6 : Ref sig .tc := ⟨.hbm, 155, rfl⟩
abbrev main_call5_cst_1 : Ref sig .tc := ⟨.hbm, 156, rfl⟩
abbrev main_call5_v7 : Ref sig .tc := ⟨.hbm, 157, rfl⟩
abbrev main_call5_v8 : Ref sig .tc := ⟨.hbm, 158, rfl⟩
abbrev main_call5_v9 : Ref sig .tc := ⟨.hbm, 159, rfl⟩
abbrev main_call5_v10 : Ref sig .tc := ⟨.hbm, 160, rfl⟩
abbrev main_v103 : Ref sig .tc := ⟨.hbm, 161, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S3200000x1_S3200000x32_0_1 : S3200000x1.BroadcastsInDim S3200000x32 (![0, 1] : Fin 2 → Fin S3200000x32.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x32_S100000x32_1_0_0_1_n_n_wf : DotDims.WF S100000x64 S64x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x10_S100000x10_1_0_0_1_n_n_wf : DotDims.WF S100000x32 S32x10 S100000x10 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x10_S100000x10_1_0_0_1_n_n : DotDims S100000x32 S32x10 S100000x10 where
  lhsContracting := [1]
  rhsContracting := [0]
  lhsNonContracting := [0]
  rhsNonContracting := [1]
  lhsBatch := []
  rhsBatch := []
  wf := dot_S100000x32_S32x10_S100000x10_1_0_0_1_n_n_wf

class Facts : Prop extends Facts₀ where

variable [Facts]
-- ==== Proof.Spec.lean ====
/-
  The two layers of the graph network as plain formulas on the extended reals.

  A layer maps a feature array `x` (one row per node) and its propagated copy `t` (the normalised-adjacency
  sum of the neighbours' rows, computed outside the dense part) to `x · W₀ + t · W₁ + b`. Row `p` of the result
  depends on row `p` of `x` and of `t` only, so the same formula describes one block of rows and the whole array:
  the row count `R` is a parameter. The first layer ends in `max · 0`; the second in the log-softmax of each row,
  `z q − m − log Σₖ exp (z k − m)` with `m` the row's maximum taken from `−∞`.
-/
import Idealize.ShloMosaic.PureOps.Ideal.Laws
import Idealize.ShloMosaic.Lib.ValueIdx

noncomputable section

namespace Cert.Cheb

open Idealize.ShloMosaic Idealize.ShloMosaic.ValueIdx

variable {R K N : ℕ}

/-- Entry `(p, q)` of `x · W₀ + t · W₁ + b`, the bias a one-row matrix. The two products are added first and the
    bias last, the order both programs use. -/
def affineAt (x t : FVec Ideal ⟨2, ![R, K]⟩ .f32) (w0 w1 : FVec Ideal ⟨2, ![K, N]⟩ .f32)
    (b : FVec Ideal ⟨2, ![1, N]⟩ .f32) (p : Fin R) (q : Fin N) : EReal :=
  ((∑ k : Fin K, x (ix2 p k) * w0 (ix2 k q)) + (∑ k : Fin K, t (ix2 p k) * w1 (ix2 k q))) + b (ix2 0 q)

/-- Entry `(p, q)` of the hidden layer: the affine map followed by `max · 0`. -/
def hiddenAt (x t : FVec Ideal ⟨2, ![R, K]⟩ .f32) (w0 w1 : FVec Ideal ⟨2, ![K, N]⟩ .f32)
    (b : FVec Ideal ⟨2, ![1, N]⟩ .f32) (p : Fin R) (q : Fin N) : EReal :=
  max (affineAt x t w0 w1 b p q) 0

/-- The largest entry of a row, from `−∞`. -/
def rowMax (z : Fin N → EReal) : EReal := (Finset.univ : Finset (Fin N)).fold max ⊥ z

/-- Entry `q` of the log-softmax of a row `z`: shift by the row's maximum, then subtract the logarithm of the
    sum of the shifted row's exponentials. -/
def logSoftmaxAt (z : Fin N → EReal) (q : Fin N) : EReal :=
  (z q - rowMax z) - Ideal.log (∑ k : Fin N, Ideal.exp (z k - rowMax z))

/-- Entry `(p, q)` of the output layer: the log-softmax of row `p` of the affine map. -/
def outAt (x t : FVec Ideal ⟨2, ![R, K]⟩ .f32) (w0 w1 : FVec Ideal ⟨2, ![K, N]⟩ .f32)
    (b : FVec Ideal ⟨2, ![1, N]⟩ .f32) (p : Fin R) (q : Fin N) : EReal :=
  logSoftmaxAt (fun k => affineAt x t w0 w1 b p k) q

/-- The hidden layer as an array. -/
def hidden (x t : FVec Ideal ⟨2, ![R, K]⟩ .f32) (w0 w1 : FVec Ideal ⟨2, ![K, N]⟩ .f32)
    (b : FVec Ideal ⟨2, ![1, N]⟩ .f32) : FVec Ideal ⟨2, ![R, N]⟩ .f32 :=
  fun i => hiddenAt x t w0 w1 b (i 0) (i 1)

/-- The output layer as an array. -/
def out (x t : FVec Ideal ⟨2, ![R, K]⟩ .f32) (w0 w1 : FVec Ideal ⟨2, ![K, N]⟩ .f32)
    (b : FVec Ideal ⟨2, ![1, N]⟩ .f32) : FVec Ideal ⟨2, ![R, N]⟩ .f32 :=
  fun i => outAt x t w0 w1 b (i 0) (i 1)

theorem hidden_apply (x t : FVec Ideal ⟨2, ![R, K]⟩ .f32) (w0 w1 : FVec Ideal ⟨2, ![K, N]⟩ .f32)
    (b : FVec Ideal ⟨2, ![1, N]⟩ .f32) (p : Fin R) (q : Fin N) :
    hidden x t w0 w1 b (ix2 p q) = hiddenAt x t w0 w1 b p q := rfl

theorem out_apply (x t : FVec Ideal ⟨2, ![R, K]⟩ .f32) (w0 w1 : FVec Ideal ⟨2, ![K, N]⟩ .f32)
    (b : FVec Ideal ⟨2, ![1, N]⟩ .f32) (p : Fin R) (q : Fin N) :
    out x t w0 w1 b (ix2 p q) = outAt x t w0 w1 b p q := rfl

/-- The f32 pattern of `−∞` is the bottom of the extended reals. -/
theorem ofBits_negInf : Ideal.ofBits .f32 0xFF800000#32 = ⊥ := by simp [Ideal.ofBits, Ideal.ieee]

/-- A maximum against `−∞` changes nothing. -/
theorem max_bot_left (a : EReal) : max ⊥ a = a := max_eq_right bot_le

/-- Only row `p` of the two feature arrays enters entry `(p, q)`: two pairs of arrays that agree on that row
    (possibly at different row numbers of arrays of different heights) give the same affine entry. -/
theorem affineAt_congr {R' : ℕ} (x t : FVec Ideal ⟨2, ![R, K]⟩ .f32) (x' t' : FVec Ideal ⟨2, ![R', K]⟩ .f32)
    (w0 w1 : FVec Ideal ⟨2, ![K, N]⟩ .f32) (b : FVec Ideal ⟨2, ![1, N]⟩ .f32) (p : Fin R) (p' : Fin R') (q : Fin N)
    (hx : ∀ k, x (ix2 p k) = x' (ix2 p' k)) (ht : ∀ k, t (ix2 p k) = t' (ix2 p' k)) :
    affineAt x t w0 w1 b p q = affineAt x' t' w0 w1 b p' q := by
  unfold affineAt
  simp only [hx, ht]

theorem hiddenAt_congr {R' : ℕ} (x t : FVec Ideal ⟨2, ![R, K]⟩ .f32) (x' t' : FVec Ideal ⟨2, ![R', K]⟩ .f32)
    (w0 w1 : FVec Ideal ⟨2, ![K, N]⟩ .f32) (b : FVec Ideal ⟨2, ![1, N]⟩ .f32) (p : Fin R) (p' : Fin R') (q : Fin N)
    (hx : ∀ k, x (ix2 p k) = x' (ix2 p' k)) (ht : ∀ k, t (ix2 p k) = t' (ix2 p' k)) :
    hiddenAt x t w0 w1 b p q = hiddenAt x' t' w0 w1 b p' q := by
  unfold hiddenAt; rw [affineAt_congr x t x' t' w0 w1 b p p' q hx ht]

theorem outAt_congr {R' : ℕ} (x t : FVec Ideal ⟨2, ![R, K]⟩ .f32) (x' t' : FVec Ideal ⟨2, ![R', K]⟩ .f32)
    (w0 w1 : FVec Ideal ⟨2, ![K, N]⟩ .f32) (b : FVec Ideal ⟨2, ![1, N]⟩ .f32) (p : Fin R) (p' : Fin R') (q : Fin N)
    (hx : ∀ k, x (ix2 p k) = x' (ix2 p' k)) (ht : ∀ k, t (ix2 p k) = t' (ix2 p' k)) :
    outAt x t w0 w1 b p q = outAt x' t' w0 w1 b p' q := by
  unfold outAt
  rw [show (fun k => affineAt x t w0 w1 b p k) = fun k => affineAt x' t' w0 w1 b p' k from
    funext fun k => affineAt_congr x t x' t' w0 w1 b p p' k hx ht]

end Cert.Cheb

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.HiddenBlock.lean ====
/-
  One block of the first dense step: the value the body stores, entry by entry.

  The stored value is `max (x · W₀ + t · W₁ + b, 0)` on the block's rows. At the ideal values the narrowing of the
  four operands is the identity, each product into the zero accumulator is the plain sum over the shared axis, the
  bias is a one-row matrix repeated down the rows, and the constant the maximum is taken against is the real `0`.
-/
import proofs.«165284_j43061342110390_1_alg».proof.Proof.Gen.KernelIdeal.Skeleton
import proofs.«165284_j43061342110390_1_alg».proof.Proof.Spec
import proofs.«165284_j43061342110390_1_alg».proof.Proof.LibDot
import Idealize.ShloMosaic.Lib.Pipeline.Value
import Idealize.ShloMosaic.Lib.ValueLayout

noncomputable section

namespace Cert.HiddenBlock

open Idealize.ShloMosaic Idealize.ShloMosaic.ValueIdx Cert.KernelIdeal Cert.KernelIdeal.Gen

/-- A block's product into the zero accumulator, at entry `(p, q)`: the sum over the 64 shared coordinates. The
    dimension record contracts the left operand's second axis with the right operand's first and has no batch axis,
    so it is the plain rows-by-columns record. -/
theorem mm_apply (a : FVec Ideal S5000x64 .bf16) (b : FVec Ideal S64x32 .bf16) (p : Fin 5000) (q : Fin 32) :
    matmul dot_S5000x64_S64x32_S5000x32_1_0_0_1_n_n none a b (constant (F := Ideal) S5000x32 .f32 0x00000000#32) (ix2 p q)
      = ∑ k : Fin 64, a (ix2 p k) * b (ix2 k q) :=
  Cert.GNN.matmul_plain_zero_apply none a b p q

/-- The bias, cast to its own shape and repeated down the 5000 rows, reads at `(p, q)` its one row at `q`. -/
theorem bias_apply (b : FVec Ideal S1x32 .f32) (p : Fin 5000) (q : Fin 32) :
    broadcastTo S5000x32 (shapeCast S1x32 b shapeCasts_S1x32_S1x32) broadcasts_S1x32_S5000x32 (ix2 p q)
      = b (ix2 0 q) := by
  rw [shapeCast_self]
  exact broadcastTo_1b_ab_apply b broadcasts_S1x32_S5000x32 p q

/-- The all-zero f32 word is the real number `0`. -/
theorem zero_eq : (Scalar.ofBits .f32 0x00000000#32 : Ideal .f32) = 0 := Ideal.ofBits_zero_f32

/-- Entry `(p, q)` of the value the first kernel stores is the hidden layer's formula on the block's rows. -/
theorem hidden_pay (x0 x1 : Vec Ideal S5000x64 .f32) (x2 x3 : Vec Ideal S64x32 .f32) (x4 : Vec Ideal S1x32 .f32)
    (p : Fin 5000) (q : Fin 32) :
    k0_pay1 (F := Ideal) x0 x1 x2 x3 x4 (ix2 p q) = Cert.Cheb.hiddenAt x0 x1 x2 x3 x4 p q := by
  unfold k0_pay1 Cert.Cheb.hiddenAt Cert.Cheb.affineAt
  -- the cast of the propagated features to their own shape is the identity
  rw [shapeCast_self x1]
  -- the maximum and the two sums are taken entry by entry
  show max ((_ + _) + _) _ = _
  rw [mm_apply, mm_apply, bias_apply, zero_eq]
  -- what is left differs only by the narrowing of the operands, the identity on extended reals
  rfl

end Cert.HiddenBlock

end
-- ==== Proof.OutBlock.lean ====
/-
  One block of the second dense step: the value the body stores, entry by entry.

  The stored value is the row-wise log-softmax of the block's logits. The logits are the two products of the block's
  rows with the two weight matrices, added, plus the bias row; at the ideal values the narrowing of the operands is
  the identity and a product into the zero accumulator is the plain sum over the shared axis, so entry `(p, k)` of
  the logits is the affine map of row `p`. The log-softmax takes each row's maximum from `−∞`, keeps it as a
  column, spreads the column back over the row, subtracts, exponentiates, sums each row, takes the logarithm of the
  sums as a column, spreads it and subtracts again. Read at entry `(p, q)`, a spread column is its entry of row `p`,
  the row maximum is the fold of `max` over the ten entries of the row, and the row sum is the sum over them: the
  formula of the output layer.
-/
import proofs.«165284_j43061342110390_1_alg».proof.Proof.Gen.KernelIdeal.Skeleton
import proofs.«165284_j43061342110390_1_alg».proof.Proof.Spec
import proofs.«165284_j43061342110390_1_alg».proof.Proof.LibDot
import Idealize.ShloMosaic.Lib.Pipeline.Value
import Idealize.ShloMosaic.Lib.ValueLayout

noncomputable section

namespace Cert.OutBlock

open Idealize.ShloMosaic Idealize.ShloMosaic.ValueIdx Cert.KernelIdeal Cert.KernelIdeal.Gen

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The logits of the block: the two products added, then the bias row on every row. -/
def logits (x0 x1 : Vec Ideal S5000x32 .f32) (x2 x3 : Vec Ideal S32x10 .f32) (x4 : Vec Ideal S1x10 .f32) :
    FVec Ideal S5000x10 .f32 :=
  addf
    (addf
      (matmul dot_S5000x32_S32x10_S5000x10_1_0_0_1_n_n none
        (truncf .bf16 (shapeCast S5000x32 x0 shapeCasts_S5000x32_S5000x32) bitsLt_bf16_f32)
        (truncf .bf16 x2 bitsLt_bf16_f32) (constant S5000x10 .f32 0x00000000#32))
      (matmul dot_S5000x32_S32x10_S5000x10_1_0_0_1_n_n none
        (truncf .bf16 (shapeCast S5000x32 x1 shapeCasts_S5000x32_S5000x32) bitsLt_bf16_f32)
        (truncf .bf16 x3 bitsLt_bf16_f32) (constant S5000x10 .f32 0x00000000#32)))
    (broadcastTo S5000x10 (shapeCast S1x10 x4 shapeCasts_S1x10_S1x10) broadcasts_S1x10_S5000x10)

/-- The row maxima of a block, from `−∞`, as a column spread over the block. -/
def rowMaxB (z : FVec Ideal S5000x10 .f32) : FVec Ideal S5000x10 .f32 :=
  broadcastTo S5000x10
    (shapeCast S5000x1 (multiReduction (F := Ideal) .maximumf [1] S5000 z 0xFF800000#32 reduces_S5000x10_S5000 (.inl rfl) rfl)
      shapeCasts_S5000_S5000x1)
    broadcasts_S5000x1_S5000x10

/-- The logarithms of the row sums of a block, as a column spread over the block. -/
def logRowSumB (e : FVec Ideal S5000x10 .f32) : FVec Ideal S5000x10 .f32 :=
  broadcastTo S5000x10
    (log (shapeCast S5000x1 (multiReduction (F := Ideal) .add [1] S5000 e 0x00000000#32 reduces_S5000x10_S5000 (.inl rfl) rfl)
      shapeCasts_S5000_S5000x1))
    broadcasts_S5000x1_S5000x10

/-- The row-wise log-softmax as the body computes it. -/
def lsm (z : FVec Ideal S5000x10 .f32) : FVec Ideal S5000x10 .f32 :=
  subf (subf z (rowMaxB z)) (logRowSumB (exp (subf z (rowMaxB z))))

/-- The stored value is the log-softmax of the logits: the body's sequence of operations, regrouped. -/
theorem pay_eq (x0 x1 : Vec Ideal S5000x32 .f32) (x2 x3 : Vec Ideal S32x10 .f32) (x4 : Vec Ideal S1x10 .f32) :
    k1_pay1 (F := Ideal) x0 x1 x2 x3 x4 = lsm (logits x0 x1 x2 x3 x4) := rfl

/-- Entry `(p, k)` of the logits is the affine map of the block's rows. -/
theorem logits_apply (x0 x1 : Vec Ideal S5000x32 .f32) (x2 x3 : Vec Ideal S32x10 .f32) (x4 : Vec Ideal S1x10 .f32)
    (p : Fin 5000) (k : Fin 10) :
    logits x0 x1 x2 x3 x4 (ix2 p k) = Cert.Cheb.affineAt x0 x1 x2 x3 x4 p k := by
  have hm (l : FVec Ideal S5000x32 .bf16) (r : FVec Ideal S32x10 .bf16) :
      matmul dot_S5000x32_S32x10_S5000x10_1_0_0_1_n_n none l r (constant S5000x10 .f32 0x00000000#32) (ix2 p k)
        = ∑ j : Fin 32, l (ix2 p j) * r (ix2 j k) :=
    Cert.GNN.matmul_plain_zero_apply (M := 5000) (K := 32) (N := 10) none l r p k
  unfold logits Cert.Cheb.affineAt
  rw [addf_apply, addf_apply, hm, hm, broadcastTo_1b_ab_apply, shapeCast_self, shapeCast_self, shapeCast_self]
  rfl

/-- The inserted index of the row reduction is `(p, k)`. -/
theorem lift_row (p : Fin 5000) (k : Fin 10) : reduces_S5000x10_S5000.lift (ix1 p) k = ix2 p k :=
  funext fun a => Fin.ext (by match a with | ⟨0, _⟩ => rfl | ⟨1, _⟩ => rfl)

/-- The spread column of row maxima reads, anywhere on row `p`, that row's maximum from `−∞`. -/
theorem rowMaxB_apply (z : FVec Ideal S5000x10 .f32) (p : Fin 5000) (q : Fin 10) :
    rowMaxB z (ix2 p q) = Cert.Cheb.rowMax (fun k => z (ix2 p k)) := by
  unfold rowMaxB
  rw [broadcastTo_a1_ab_apply, shapeCast_a_a1_apply]
  refine (Ideal.multiReduction_maximumf_single z 0xFF800000#32 reduces_S5000x10_S5000 (.inl rfl) rfl (ix1 p)).trans ?_
  unfold Cert.Cheb.rowMax
  show (Finset.univ : Finset (Fin 10)).fold max (Ideal.ofBits .f32 0xFF800000#32)
      (fun k => z (reduces_S5000x10_S5000.lift (ix1 p) k)) = _
  rw [Cert.Cheb.ofBits_negInf]
  exact congrArg (fun f => (Finset.univ : Finset (Fin 10)).fold max ⊥ f) (funext fun k => congrArg z (lift_row p k))

/-- The spread column of logarithms reads, anywhere on row `p`, the logarithm of that row's sum. -/
theorem logRowSumB_apply (e : FVec Ideal S5000x10 .f32) (p : Fin 5000) (q : Fin 10) :
    logRowSumB e (ix2 p q) = Ideal.log (∑ k : Fin 10, e (ix2 p k)) := by
  unfold logRowSumB
  rw [broadcastTo_a1_ab_apply]
  show Ideal.log (shapeCast S5000x1
      (multiReduction (F := Ideal) .add [1] S5000 e 0x00000000#32 reduces_S5000x10_S5000 (.inl rfl) rfl)
      shapeCasts_S5000_S5000x1 (ix2 p (0 : Fin 1))) = _
  rw [shapeCast_a_a1_apply]
  refine congrArg Ideal.log ?_
  refine (Ideal.multiReduction_add_single e 0x00000000#32 reduces_S5000x10_S5000 (.inl rfl) rfl (ix1 p)).trans ?_
  exact Finset.sum_congr rfl fun k _ => congrArg e (lift_row p k)

/-- The body's log-softmax, entry by entry, is the formula on the row. -/
theorem lsm_apply (z : FVec Ideal S5000x10 .f32) (p : Fin 5000) (q : Fin 10) :
    lsm z (ix2 p q) = Cert.Cheb.logSoftmaxAt (fun k => z (ix2 p k)) q := by
  unfold lsm Cert.Cheb.logSoftmaxAt
  rw [subf_apply, subf_apply, logRowSumB_apply, rowMaxB_apply]
  refine congrArg (fun s => _ - Ideal.log s) (Finset.sum_congr rfl fun k _ => ?_)
  show Ideal.exp (subf z (rowMaxB z) (ix2 p k)) = _
  rw [subf_apply, rowMaxB_apply]

/-- Entry `(p, q)` of the value the second kernel stores is the output layer's formula on the block's rows. -/
theorem out_pay (x0 x1 : Vec Ideal S5000x32 .f32) (x2 x3 : Vec Ideal S32x10 .f32) (x4 : Vec Ideal S1x10 .f32)
    (p : Fin 5000) (q : Fin 10) :
    k1_pay1 (F := Ideal) x0 x1 x2 x3 x4 (ix2 p q) = Cert.Cheb.outAt x0 x1 x2 x3 x4 p q := by
  rw [pay_eq, lsm_apply]
  exact congrArg (fun f => Cert.Cheb.logSoftmaxAt f q) (funext fun k => logits_apply x0 x1 x2 x3 x4 p k)

end Cert.OutBlock

end
-- ==== Proof.Arrays.lean ====
/-
  From blocks to arrays: what each of the two dense steps leaves in its whole output array.

  A dense step runs over twenty grid points. At point `t` it reads rows `5000 t … 5000 t + 4999` of the two feature
  arrays, the two weight matrices and the bias row whole, and writes rows `5000 t … 5000 t + 4999` of its output array.
  Entry `(p, q)` of what it writes is the layer's formula on row `p` of the blocks, which is row `5000 t + p` of the
  arrays; and every row `r` of the output array is written by point `r / 5000`. So the array ends holding the layer.
-/
import proofs.«165284_j43061342110390_1_alg».proof.Proof.Gen.KernelIdeal.Frame
import proofs.«165284_j43061342110390_1_alg».proof.Proof.HiddenBlock
import proofs.«165284_j43061342110390_1_alg».proof.Proof.OutBlock
import Idealize.ShloMosaic.Lib.Pipeline.Value

set_option maxRecDepth 16384

noncomputable section

namespace Cert.Arrays

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The two zero offsets, as the constant function. -/
theorem zero_offsets : (![0, 0] : Fin 2 → Nat) = fun _ => 0 := funext fun a => by fin_cases a <;> rfl

/-- Row `p` of row block `t` is row `5000 t + p` of the array. -/
def rowOf (t : Fin 20) (p : Fin 5000) : Fin 100000 := ⟨5000 * t.val + p.val, by have := t.isLt; have := p.isLt; omega⟩

/-! ## The first dense step -/

/-- Where each window's block sits at grid point `t`: the two feature windows and the output window take row block `t`,
    the two weight windows and the bias window always their whole array. -/
theorem blocks_of_point0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first step's grid has twenty points. -/
theorem points0 : cfg0.N = 20 := by decide

/-- The features' block at point `t`, row by row. -/
theorem read0_0 (A : S100000x64.Idx → EReal) (t : Fin cfg0.N) (p : Fin 5000) (k : Fin 64) :
    ((cfg0.win 0).blk t).view.read (Elt Ideal) A (ix2 p k) = A (ix2 (rowOf (t.cast points0) p) k) := by
  rw [View.read_apply]
  show A _ = A _
  congr 1
  funext a; apply Fin.ext
  obtain ⟨e0, e1, -⟩ := blocks_of_point0 t
  match a with
  | ⟨0, _⟩ => show win0_0.index t (0 : Fin 2) * 5000 + 1 * p.val = 5000 * t.val + p.val; omega
  | ⟨1, _⟩ => show win0_0.index t (1 : Fin 2) * 64 + 1 * k.val = k.val; omega

/-- The propagated features' block at point `t`, row by row. -/
theorem read0_1 (A : S100000x64.Idx → EReal) (t : Fin cfg0.N) (p : Fin 5000) (k : Fin 64) :
    ((cfg0.win 1).blk t).view.read (Elt Ideal) A (ix2 p k) = A (ix2 (rowOf (t.cast points0) p) k) := by
  rw [View.read_apply]
  show A _ = A _
  congr 1
  funext a; apply Fin.ext
  obtain ⟨-, -, e0, e1, -⟩ := blocks_of_point0 t
  match a with
  | ⟨0, _⟩ => show win0_1.index t (0 : Fin 2) * 5000 + 1 * p.val = 5000 * t.val + p.val; omega
  | ⟨1, _⟩ => show win0_1.index t (1 : Fin 2) * 64 + 1 * k.val = k.val; omega

/-- The first weight window's block is the whole weight matrix at every point. -/
theorem read0_2 (A : S64x32.Idx → EReal) (t : Fin cfg0.N) :
    ((cfg0.win 2).blk t).view.read (Elt Ideal) A = A := by
  funext j
  rw [View.read_apply]
  show A _ = A _
  congr 1
  funext a; apply Fin.ext
  obtain ⟨-, -, -, -, e0, e1, -⟩ := blocks_of_point0 t
  match a with
  | ⟨0, _⟩ => show win0_2.index t (0 : Fin 2) * 64 + 1 * (j 0).val = (j 0).val; omega
  | ⟨1, _⟩ => show win0_2.index t (1 : Fin 2) * 32 + 1 * (j 1).val = (j 1).val; omega

/-- The second weight window's block is the whole weight matrix at every point. -/
theorem read0_3 (A : S64x32.Idx → EReal) (t : Fin cfg0.N) :
    ((cfg0.win 3).blk t).view.read (Elt Ideal) A = A := by
  funext j
  rw [View.read_apply]
  show A _ = A _
  congr 1
  funext a; apply Fin.ext
  obtain ⟨-, -, -, -, -, -, e0, e1, -⟩ := blocks_of_point0 t
  match a with
  | ⟨0, _⟩ => show win0_3.index t (0 : Fin 2) * 64 + 1 * (j 0).val = (j 0).val; omega
  | ⟨1, _⟩ => show win0_3.index t (1 : Fin 2) * 32 + 1 * (j 1).val = (j 1).val; omega

/-- The bias window's block is the whole bias row at every point. -/
theorem read0_4 (A : S1x32.Idx → EReal) (t : Fin cfg0.N) :
    ((cfg0.win 4).blk t).view.read (Elt Ideal) A = A := by
  funext j
  rw [View.read_apply]
  show A _ = A _
  congr 1
  funext a; apply Fin.ext
  obtain ⟨-, -, -, -, -, -, -, -, e0, e1, -⟩ := blocks_of_point0 t
  match a with
  | ⟨0, _⟩ => show win0_4.index t (0 : Fin 2) * 1 + 1 * (j 0).val = (j 0).val; omega
  | ⟨1, _⟩ => show win0_4.index t (1 : Fin 2) * 32 + 1 * (j 1).val = (j 1).val; omega

/-- Entry `(p, q)` of the output window's block at point `t` is entry `(5000 t + p, q)` of the array. -/
theorem emb0_5 (t : Fin cfg0.N) (p : Fin 5000) (q : Fin 32) :
    ((cfg0.win 5).blk t).view.emb (ix2 p q) = (ix2 (rowOf (t.cast points0) p) q : S100000x32.Idx) := by
  funext a; apply Fin.ext
  obtain ⟨-, -, -, -, -, -, -, -, -, -, e0, e1⟩ := blocks_of_point0 t
  match a with
  | ⟨0, _⟩ => show win0_5.index t (0 : Fin 2) * 5000 + 1 * p.val = 5000 * t.val + p.val; omega
  | ⟨1, _⟩ => show win0_5.index t (1 : Fin 2) * 32 + 1 * q.val = q.val; omega

/-- The body's payload on blocks that hold row `r` of the two feature arrays in their row `p`, the weights and the bias
    whole: entry `(p, q)` is entry `(r, q)` of the hidden layer of the arrays. -/
theorem pay_row0 (A0 A1 : S100000x64.Idx → EReal) (x0 x1 : Vec Ideal S5000x64 .f32) (x2 x3 : Vec Ideal S64x32 .f32)
    (x4 : Vec Ideal S1x32 .f32) (p : Fin 5000) (r : Fin 100000) (q : Fin 32)
    (h0 : ∀ k : Fin 64, x0 (ix2 p k) = A0 (ix2 r k)) (h1 : ∀ k : Fin 64, x1 (ix2 p k) = A1 (ix2 r k)) :
    k0_pay1 (F := Ideal) x0 x1 x2 x3 x4 (ix2 p q)
      = Cert.Cheb.hidden (R := 100000) (K := 64) (N := 32) A0 A1 x2 x3 x4 (ix2 r q) := by
  rw [Cert.HiddenBlock.hidden_pay, Cert.Cheb.hidden_apply]
  exact Cert.Cheb.hiddenAt_congr x0 x1 A0 A1 x2 x3 x4 p r q h0 h1

/-- What point `t` writes back is block `t` of the hidden layer of the arrays the region was entered with. -/
theorem hidden_flushed (c : Dev nD) (t : Fin cfg0.N) :
    (dat0 (F := Ideal) V c).flushed 5 t = ((cfg0.win 5).blk t).view.read (Elt Ideal)
      (Cert.Cheb.hidden (R := 100000) (K := 64) (N := 32) (V c main_arg0) (V c main_v46) (V c main_arg2) (V c main_arg3) (V c main_v47)) := by
  show (cfg0.win 5).cut (grid0.coords t) ((dat0 V c).after 5 t) = _
  rw [after0_5]
  unfold out0_5
  rw [View.canon_unit_zero zero_offsets]
  simp only [View.ld_unit_zero (S := S5000x64) zero_offsets, View.ld_unit_zero (S := S64x32) zero_offsets, View.ld_unit_zero (S := S1x32) zero_offsets]
  have e2 : iblk0 V c 2 t = (V c main_arg2 : S64x32.Idx → EReal) := read0_2 _ t
  have e3 : iblk0 V c 3 t = (V c main_arg3 : S64x32.Idx → EReal) := read0_3 _ t
  have e4 : iblk0 V c 4 t = (V c main_v47 : S1x32.Idx → EReal) := read0_4 _ t
  rw [e2, e3, e4]
  funext j
  obtain ⟨p, q, rfl⟩ : ∃ (p : Fin 5000) (q : Fin 32), j = ix2 p q := ⟨j 0, j 1, eq_ix2 j⟩
  rw [View.read_apply]
  show k0_pay1 (iblk0 V c 0 t) (iblk0 V c 1 t) _ _ _ (ix2 p q) = Cert.Cheb.hidden _ _ _ _ _ (((cfg0.win 5).blk t).view.emb (ix2 p q))
  rw [emb0_5]
  exact pay_row0 _ _ _ _ _ _ _ p _ q (fun k => read0_0 _ t p k) (fun k => read0_1 _ t p k)

/-- An entry of the array is in point `t`'s output block iff each coordinate is in the block's range on its axis. -/
theorem mem_blk0 (t : Fin cfg0.N) (i : S100000x32.Idx) :
    i ∈ ((cfg0.win 5).blk t).view.set ↔ ∀ a : Fin 2, win0_5.index t a * S5000x32.size a ≤ (i a).val ∧ (i a).val < win0_5.index t a * S5000x32.size a + S5000x32.size a := by
  show i ∈ ((View.whole main_v48).slice (win0_5.rect t)).set ↔ _
  rw [View.set_slice_whole, Rect.mem_set_unit]
  exact Iff.rfl

/-- Every entry of the output array is in the block of the point its row falls in: row `r` in that of point `r / 5000`. -/
theorem cover0 (i : S100000x32.Idx) :
    ∃ t : Fin cfg0.N, (cfg0.win 5).flush t = true ∧ i ∈ ((cfg0.win 5).blk t).view.set := by
  have hi0 : (i 0).val < 100000 := (i 0).isLt
  have hi1 : (i 1).val < 32 := (i 1).isLt
  let t : Fin cfg0.N := ⟨(i 0).val / 5000, by rw [points0]; omega⟩
  have ht : t.val = (i 0).val / 5000 := rfl
  obtain ⟨-, -, -, -, -, -, -, -, -, -, e0, e1⟩ := blocks_of_point0 t
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 32 ≤ (i 1).val ∧ (i 1).val < win0_5.index t (1 : Fin 2) * 32 + 32; omega

/-- After the first region its output array is the hidden layer of the arrays the region was entered with. -/
theorem hidden_arr (c : Dev nD) :
    (dat0 (F := Ideal) V c).arrAt 5 cfg0.N
      = Cert.Cheb.hidden (R := 100000) (K := 64) (N := 32) (V c main_arg0) (V c main_v46) (V c main_arg2) (V c main_arg3) (V c main_v47) :=
  (dat0 (F := Ideal) V c).arrAt_eq_of_cover 5
    (Cert.Cheb.hidden (R := 100000) (K := 64) (N := 32) (V c main_arg0) (V c main_v46) (V c main_arg2) (V c main_arg3) (V c main_v47))
    (fun t _ => hidden_flushed V c t) cover0

/-! ## The second dense step -/

/-- Where each window's block sits at grid point `t` of the second step: the two feature windows and the output window
    take row block `t`, the two weight windows and the bias window always their whole array. -/
theorem blocks_of_point1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The second step's grid has twenty points. -/
theorem points1 : cfg1.N = 20 := by decide

/-- The hidden features' block at point `t`, row by row. -/
theorem read1_0 (A : S100000x32.Idx → EReal) (t : Fin cfg1.N) (p : Fin 5000) (k : Fin 32) :
    ((cfg1.win 0).blk t).view.read (Elt Ideal) A (ix2 p k) = A (ix2 (rowOf (t.cast points1) p) k) := by
  rw [View.read_apply]
  show A _ = A _
  congr 1
  funext a; apply Fin.ext
  obtain ⟨e0, e1, -⟩ := blocks_of_point1 t
  match a with
  | ⟨0, _⟩ => show win1_0.index t (0 : Fin 2) * 5000 + 1 * p.val = 5000 * t.val + p.val; omega
  | ⟨1, _⟩ => show win1_0.index t (1 : Fin 2) * 32 + 1 * k.val = k.val; omega

/-- The propagated hidden features' block at point `t`, row by row. -/
theorem read1_1 (A : S100000x32.Idx → EReal) (t : Fin cfg1.N) (p : Fin 5000) (k : Fin 32) :
    ((cfg1.win 1).blk t).view.read (Elt Ideal) A (ix2 p k) = A (ix2 (rowOf (t.cast points1) p) k) := by
  rw [View.read_apply]
  show A _ = A _
  congr 1
  funext a; apply Fin.ext
  obtain ⟨-, -, e0, e1, -⟩ := blocks_of_point1 t
  match a with
  | ⟨0, _⟩ => show win1_1.index t (0 : Fin 2) * 5000 + 1 * p.val = 5000 * t.val + p.val; omega
  | ⟨1, _⟩ => show win1_1.index t (1 : Fin 2) * 32 + 1 * k.val = k.val; omega

/-- The first weight window's block is the whole weight matrix at every point. -/
theorem read1_2 (A : S32x10.Idx → EReal) (t : Fin cfg1.N) :
    ((cfg1.win 2).blk t).view.read (Elt Ideal) A = A := by
  funext j
  rw [View.read_apply]
  show A _ = A _
  congr 1
  funext a; apply Fin.ext
  obtain ⟨-, -, -, -, e0, e1, -⟩ := blocks_of_point1 t
  match a with
  | ⟨0, _⟩ => show win1_2.index t (0 : Fin 2) * 32 + 1 * (j 0).val = (j 0).val; omega
  | ⟨1, _⟩ => show win1_2.index t (1 : Fin 2) * 10 + 1 * (j 1).val = (j 1).val; omega

/-- The second weight window's block is the whole weight matrix at every point. -/
theorem read1_3 (A : S32x10.Idx → EReal) (t : Fin cfg1.N) :
    ((cfg1.win 3).blk t).view.read (Elt Ideal) A = A := by
  funext j
  rw [View.read_apply]
  show A _ = A _
  congr 1
  funext a; apply Fin.ext
  obtain ⟨-, -, -, -, -, -, e0, e1, -⟩ := blocks_of_point1 t
  match a with
  | ⟨0, _⟩ => show win1_3.index t (0 : Fin 2) * 32 + 1 * (j 0).val = (j 0).val; omega
  | ⟨1, _⟩ => show win1_3.index t (1 : Fin 2) * 10 + 1 * (j 1).val = (j 1).val; omega

/-- The bias window's block is the whole bias row at every point. -/
theorem read1_4 (A : S1x10.Idx → EReal) (t : Fin cfg1.N) :
    ((cfg1.win 4).blk t).view.read (Elt Ideal) A = A := by
  funext j
  rw [View.read_apply]
  show A _ = A _
  congr 1
  funext a; apply Fin.ext
  obtain ⟨-, -, -, -, -, -, -, -, e0, e1, -⟩ := blocks_of_point1 t
  match a with
  | ⟨0, _⟩ => show win1_4.index t (0 : Fin 2) * 1 + 1 * (j 0).val = (j 0).val; omega
  | ⟨1, _⟩ => show win1_4.index t (1 : Fin 2) * 10 + 1 * (j 1).val = (j 1).val; omega

/-- Entry `(p, q)` of the output window's block at point `t` is entry `(5000 t + p, q)` of the array. -/
theorem emb1_5 (t : Fin cfg1.N) (p : Fin 5000) (q : Fin 10) :
    ((cfg1.win 5).blk t).view.emb (ix2 p q) = (ix2 (rowOf (t.cast points1) p) q : S100000x10.Idx) := by
  funext a; apply Fin.ext
  obtain ⟨-, -, -, -, -, -, -, -, -, -, e0, e1⟩ := blocks_of_point1 t
  match a with
  | ⟨0, _⟩ => show win1_5.index t (0 : Fin 2) * 5000 + 1 * p.val = 5000 * t.val + p.val; omega
  | ⟨1, _⟩ => show win1_5.index t (1 : Fin 2) * 10 + 1 * q.val = q.val; omega

/-- The body's payload on blocks that hold row `r` of the two feature arrays in their row `p`, the weights and the bias
    whole: entry `(p, q)` is entry `(r, q)` of the output layer of the arrays. -/
theorem pay_row1 (A0 A1 : S100000x32.Idx → EReal) (x0 x1 : Vec Ideal S5000x32 .f32) (x2 x3 : Vec Ideal S32x10 .f32)
    (x4 : Vec Ideal S1x10 .f32) (p : Fin 5000) (r : Fin 100000) (q : Fin 10)
    (h0 : ∀ k : Fin 32, x0 (ix2 p k) = A0 (ix2 r k)) (h1 : ∀ k : Fin 32, x1 (ix2 p k) = A1 (ix2 r k)) :
    k1_pay1 (F := Ideal) x0 x1 x2 x3 x4 (ix2 p q)
      = Cert.Cheb.out (R := 100000) (K := 32) (N := 10) A0 A1 x2 x3 x4 (ix2 r q) := by
  rw [Cert.OutBlock.out_pay, Cert.Cheb.out_apply]
  exact Cert.Cheb.outAt_congr x0 x1 A0 A1 x2 x3 x4 p r q h0 h1

/-- What point `t` writes back is block `t` of the output layer of the arrays the region was entered with. -/
theorem out_flushed (c : Dev nD) (t : Fin cfg1.N) :
    (dat1 (F := Ideal) V c).flushed 5 t = ((cfg1.win 5).blk t).view.read (Elt Ideal)
      (Cert.Cheb.out (R := 100000) (K := 32) (N := 10) (V c main_v48) (V c main_v61) (V c main_arg5) (V c main_arg6) (V c main_v62)) := by
  show (cfg1.win 5).cut (grid1.coords t) ((dat1 V c).after 5 t) = _
  rw [after1_5]
  unfold out1_5
  rw [View.canon_unit_zero zero_offsets]
  simp only [View.ld_unit_zero (S := S5000x32) zero_offsets, View.ld_unit_zero (S := S32x10) zero_offsets, View.ld_unit_zero (S := S1x10) zero_offsets]
  have e2 : iblk1 V c 2 t = (V c main_arg5 : S32x10.Idx → EReal) := read1_2 _ t
  have e3 : iblk1 V c 3 t = (V c main_arg6 : S32x10.Idx → EReal) := read1_3 _ t
  have e4 : iblk1 V c 4 t = (V c main_v62 : S1x10.Idx → EReal) := read1_4 _ t
  rw [e2, e3, e4]
  funext j
  obtain ⟨p, q, rfl⟩ : ∃ (p : Fin 5000) (q : Fin 10), j = ix2 p q := ⟨j 0, j 1, eq_ix2 j⟩
  rw [View.read_apply]
  show k1_pay1 (iblk1 V c 0 t) (iblk1 V c 1 t) _ _ _ (ix2 p q) = Cert.Cheb.out _ _ _ _ _ (((cfg1.win 5).blk t).view.emb (ix2 p q))
  rw [emb1_5]
  exact pay_row1 _ _ _ _ _ _ _ p _ q (fun k => read1_0 _ t p k) (fun k => read1_1 _ t p k)

/-- An entry of the array is in point `t`'s output block iff each coordinate is in the block's range on its axis. -/
theorem mem_blk1 (t : Fin cfg1.N) (i : S100000x10.Idx) :
    i ∈ ((cfg1.win 5).blk t).view.set ↔ ∀ a : Fin 2, win1_5.index t a * S5000x10.size a ≤ (i a).val ∧ (i a).val < win1_5.index t a * S5000x10.size a + S5000x10.size a := by
  show i ∈ ((View.whole main_v63).slice (win1_5.rect t)).set ↔ _
  rw [View.set_slice_whole, Rect.mem_set_unit]
  exact Iff.rfl

/-- Every entry of the output array is in the block of the point its row falls in: row `r` in that of point `r / 5000`. -/
theorem cover1 (i : S100000x10.Idx) :
    ∃ t : Fin cfg1.N, (cfg1.win 5).flush t = true ∧ i ∈ ((cfg1.win 5).blk t).view.set := by
  have hi0 : (i 0).val < 100000 := (i 0).isLt
  have hi1 : (i 1).val < 10 := (i 1).isLt
  let t : Fin cfg1.N := ⟨(i 0).val / 5000, by rw [points1]; omega⟩
  have ht : t.val = (i 0).val / 5000 := rfl
  obtain ⟨-, -, -, -, -, -, -, -, -, -, e0, e1⟩ := blocks_of_point1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 10 ≤ (i 1).val ∧ (i 1).val < win1_5.index t (1 : Fin 2) * 10 + 10; omega

/-- After the second region its output array is the output layer of the arrays the region was entered with. -/
theorem out_arr (c : Dev nD) :
    (dat1 (F := Ideal) V c).arrAt 5 cfg1.N
      = Cert.Cheb.out (R := 100000) (K := 32) (N := 10) (V c main_v48) (V c main_v61) (V c main_arg5) (V c main_arg6) (V c main_v62) :=
  (dat1 (F := Ideal) V c).arrAt_eq_of_cover 5
    (Cert.Cheb.out (R := 100000) (K := 32) (N := 10) (V c main_v48) (V c main_v61) (V c main_arg5) (V c main_arg6) (V c main_v62))
    (fun t _ => out_flushed V c t) cover1

end Cert.Arrays

end
-- ==== Proof.KHost.lean ====
/-
  What the kernel's program holds in its buffers when each dense step starts, in the vocabulary of the reference's
  stages.

  Between the launch and the first dense step the program computes the edge weights and the propagated features with
  the very operations the reference uses; between the two steps it propagates the hidden activations with the edge
  weights it already has, where the reference computes the weights a second time. Read at the ideal values (indeed at
  any float family) each buffer the dense steps take is therefore the reference's stage of the same name applied to the
  same arguments: the two terms are one, operation by operation.
-/
import proofs.«165284_j43061342110390_1_alg».proof.Proof.Gen.KernelIdeal.Frame
import proofs.«165284_j43061342110390_1_alg».proof.Proof.RefRead
import Idealize.ShloMosaic.Lib.StableHlo.Run

set_option maxRecDepth 16384

noncomputable section

namespace Cert.KHost

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first dense step -/

set_option maxHeartbeats 40000000 in
/-- The features are as launched. -/
theorem entry0_arg0 (c : Dev nD) : W5 m ρ c (Proc.devRef .tc main_arg0) = m ((c : Thread nD τ).loc main_arg0) := by
  dsimp only [W5, W4, W3, W2, W1, W0]
  unfold hostOps0_4 hostOps0_3 hostOps0_2 hostOps0_1 hostOps0
  after_results_simp

set_option maxHeartbeats 40000000 in
/-- The first layer's two weight matrices are as launched. -/
theorem entry0_arg2 (c : Dev nD) : W5 m ρ c (Proc.devRef .tc main_arg2) = m ((c : Thread nD τ).loc main_arg2) := by
  dsimp only [W5, W4, W3, W2, W1, W0]
  unfold hostOps0_4 hostOps0_3 hostOps0_2 hostOps0_1 hostOps0
  after_results_simp

set_option maxHeartbeats 40000000 in
theorem entry0_arg3 (c : Dev nD) : W5 m ρ c (Proc.devRef .tc main_arg3) = m ((c : Thread nD τ).loc main_arg3) := by
  dsimp only [W5, W4, W3, W2, W1, W0]
  unfold hostOps0_4 hostOps0_3 hostOps0_2 hostOps0_1 hostOps0
  after_results_simp

set_option maxHeartbeats 40000000 in
/-- The propagated features: the scatter-add over the edges of the weighted gathered rows, the reference's stage 46. -/
theorem entry0_prop (c : Dev nD) : W5 m ρ c (Proc.devRef .tc main_v46)
    = Cert.ReferenceIdeal.ReadP.val_main_v46 (F := F) (m ((c : Thread nD τ).loc main_arg0)) (m ((c : Thread nD τ).loc main_arg1)) := by
  dsimp only [W5, W4, W3, W2, W1, W0]
  unfold hostOps0_4 hostOps0_3 hostOps0_2 hostOps0_1 hostOps0
  after_results_simp
  rfl

set_option maxHeartbeats 40000000 in
/-- The first bias as a one-row matrix, as the program spells it: a reshape of the bias vector. -/
theorem entry0_bias (c : Dev nD) : W5 m ρ c (Proc.devRef .tc main_v47)
    = (shapeCast S1x32 (m ((c : Thread nD τ).loc main_arg4)) shapeCasts_S32_S1x32 : FVec F S1x32 .f32) := by
  dsimp only [W5, W4, W3, W2, W1, W0]
  unfold hostOps0_4 hostOps0_3 hostOps0_2 hostOps0_1 hostOps0
  after_results_simp
  rfl

set_option maxHeartbeats 40000000 in
/-- The edges' source rows, stage 1. -/
theorem entry0_src (c : Dev nD) : W5 m ρ c (Proc.devRef .tc main_v1) = Cert.ReferenceIdeal.ReadP.val_main_v1 (F := F) (m ((c : Thread nD τ).loc main_arg1)) := by
  dsimp only [W5, W4, W3, W2, W1, W0]
  unfold hostOps0_4 hostOps0_3 hostOps0_2 hostOps0_1 hostOps0
  after_results_simp
  rfl

set_option maxHeartbeats 40000000 in
/-- The edges' target rows, stage 3. -/
theorem entry0_dst (c : Dev nD) : W5 m ρ c (Proc.devRef .tc main_v3) = Cert.ReferenceIdeal.ReadP.val_main_v3 (F := F) (m ((c : Thread nD τ).loc main_arg1)) := by
  dsimp only [W5, W4, W3, W2, W1, W0]
  unfold hostOps0_4 hostOps0_3 hostOps0_2 hostOps0_1 hostOps0
  after_results_simp
  rfl

set_option maxHeartbeats 40000000 in
/-- The edge weights, stage 33. -/
theorem entry0_weights (c : Dev nD) : W5 m ρ c (Proc.devRef .tc main_v33) = Cert.ReferenceIdeal.ReadP.val_main_v33 (F := F) (m ((c : Thread nD τ).loc main_arg1)) := by
  dsimp only [W5, W4, W3, W2, W1, W0]
  unfold hostOps0_4 hostOps0_3 hostOps0_2 hostOps0_1 hostOps0
  after_results_simp
  rfl

set_option maxHeartbeats 40000000 in
theorem entry0_arg5 (c : Dev nD) : W5 m ρ c (Proc.devRef .tc main_arg5) = m ((c : Thread nD τ).loc main_arg5) := by
  dsimp only [W5, W4, W3, W2, W1, W0]
  unfold hostOps0_4 hostOps0_3 hostOps0_2 hostOps0_1 hostOps0
  after_results_simp

set_option maxHeartbeats 40000000 in
theorem entry0_arg6 (c : Dev nD) : W5 m ρ c (Proc.devRef .tc main_arg6) = m ((c : Thread nD τ).loc main_arg6) := by
  dsimp only [W5, W4, W3, W2, W1, W0]
  unfold hostOps0_4 hostOps0_3 hostOps0_2 hostOps0_1 hostOps0
  after_results_simp

set_option maxHeartbeats 40000000 in
theorem entry0_arg7 (c : Dev nD) : W5 m ρ c (Proc.devRef .tc main_arg7) = m ((c : Thread nD τ).loc main_arg7) := by
  dsimp only [W5, W4, W3, W2, W1, W0]
  unfold hostOps0_4 hostOps0_3 hostOps0_2 hostOps0_1 hostOps0
  after_results_simp

/-! ## Across the first dense step: only its output array changes -/

theorem across0_src (c : Dev nD) : W6 m ρ c (Proc.devRef .tc main_v1) = Cert.ReferenceIdeal.ReadP.val_main_v1 (F := F) (m ((c : Thread nD τ).loc main_arg1)) :=
  (W6_of_ne m ρ c main_v1 (by decide)).trans (entry0_src m ρ c)
theorem across0_dst (c : Dev nD) : W6 m ρ c (Proc.devRef .tc main_v3) = Cert.ReferenceIdeal.ReadP.val_main_v3 (F := F) (m ((c : Thread nD τ).loc main_arg1)) :=
  (W6_of_ne m ρ c main_v3 (by decide)).trans (entry0_dst m ρ c)
theorem across0_weights (c : Dev nD) : W6 m ρ c (Proc.devRef .tc main_v33) = Cert.ReferenceIdeal.ReadP.val_main_v33 (F := F) (m ((c : Thread nD τ).loc main_arg1)) :=
  (W6_of_ne m ρ c main_v33 (by decide)).trans (entry0_weights m ρ c)
theorem across0_arg5 (c : Dev nD) : W6 m ρ c (Proc.devRef .tc main_arg5) = m ((c : Thread nD τ).loc main_arg5) :=
  (W6_of_ne m ρ c main_arg5 (by decide)).trans (entry0_arg5 m ρ c)
theorem across0_arg6 (c : Dev nD) : W6 m ρ c (Proc.devRef .tc main_arg6) = m ((c : Thread nD τ).loc main_arg6) :=
  (W6_of_ne m ρ c main_arg6 (by decide)).trans (entry0_arg6 m ρ c)
theorem across0_arg7 (c : Dev nD) : W6 m ρ c (Proc.devRef .tc main_arg7) = m ((c : Thread nD τ).loc main_arg7) :=
  (W6_of_ne m ρ c main_arg7 (by decide)).trans (entry0_arg7 m ρ c)

/-! ## Before the second dense step -/

set_option maxHeartbeats 40000000 in
/-- The hidden activations are what the first step left. -/
theorem entry1_hidden (c : Dev nD) : W7 m ρ c (Proc.devRef .tc main_v48) = W6 m ρ c (Proc.devRef .tc main_v48) := by
  dsimp only [W7]
  unfold hostOps1
  after_results_simp

set_option maxHeartbeats 40000000 in
theorem entry1_arg5 (c : Dev nD) : W7 m ρ c (Proc.devRef .tc main_arg5) = m ((c : Thread nD τ).loc main_arg5) := by
  dsimp only [W7]
  unfold hostOps1
  after_results_simp
  exact across0_arg5 m ρ c

set_option maxHeartbeats 40000000 in
theorem entry1_arg6 (c : Dev nD) : W7 m ρ c (Proc.devRef .tc main_arg6) = m ((c : Thread nD τ).loc main_arg6) := by
  dsimp only [W7]
  unfold hostOps1
  after_results_simp
  exact across0_arg6 m ρ c

set_option maxHeartbeats 40000000 in
/-- The second bias as a one-row matrix, as the program spells it: a reshape of the bias vector. -/
theorem entry1_bias (c : Dev nD) : W7 m ρ c (Proc.devRef .tc main_v62)
    = (shapeCast S1x10 (m ((c : Thread nD τ).loc main_arg7)) shapeCasts_S10_S1x10 : FVec F S1x10 .f32) := by
  dsimp only [W7]
  unfold hostOps1
  after_results_simp
  rw [across0_arg7 m ρ c]
  rfl

set_option maxHeartbeats 40000000 in
/-- The propagated hidden activations: where the first step left the reference's hidden activations (stage 53), the
    scatter-add over the edges of their weighted gathered rows is the reference's stage 96 — the reference's second copy
    of the edge weights is the first, operation by operation. -/
theorem entry1_prop (c : Dev nD)
    (hH : W6 m ρ c (Proc.devRef .tc main_v48)
      = Cert.ReferenceIdeal.ReadP.val_main_v53 (F := F) (m ((c : Thread nD τ).loc main_arg0)) (m ((c : Thread nD τ).loc main_arg1)) (m ((c : Thread nD τ).loc main_arg2)) (m ((c : Thread nD τ).loc main_arg3)) (m ((c : Thread nD τ).loc main_arg4))) :
    W7 m ρ c (Proc.devRef .tc main_v61)
      = Cert.ReferenceIdeal.ReadP.val_main_v96 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [W7]
  unfold hostOps1
  after_results_simp
  rw [hH, across0_src m ρ c, across0_dst m ρ c, across0_weights m ρ c]
  rfl

end Cert.KHost

end
-- ==== Proof.RefValue.lean ====
/-
  The reference program's two results as the layers' formulas of the stages that feed them.
-/
import proofs.«165284_j43061342110390_1_alg».proof.Proof.RefRead
import proofs.«165284_j43061342110390_1_alg».proof.Proof.Spec
import proofs.«165284_j43061342110390_1_alg».proof.Proof.LibDot

noncomputable section

namespace Cert.RefValue

open Idealize.ShloMosaic Idealize.ShloMosaic.ValueIdx Cert.ReferenceIdeal Cert.ReferenceIdeal.ReadP

/-- The reference's hidden activations are the hidden layer of the features, their propagated copy (stage 46) and
    the bias as a one-row matrix (stage 50). At entry `(p, q)` both products are sums over the shared axis, the bias
    is read from its one row, and the final maximum is against the zero array. -/
theorem ref_hidden (x0 : (⟨S100000x64, .f32⟩ : BufTy).Contents (Elt Ideal)) (x1 : (⟨S2x3200000, .i32⟩ : BufTy).Contents (Elt Ideal))
    (x2 x3 : (⟨S64x32, .f32⟩ : BufTy).Contents (Elt Ideal)) (x4 : (⟨S32, .f32⟩ : BufTy).Contents (Elt Ideal)) :
    val_main_v53 (F := Ideal) x0 x1 x2 x3 x4
      = Cert.Cheb.hidden (R := 100000) (K := 64) (N := 32) x0 (val_main_v46 (F := Ideal) x0 x1) x2 x3 (val_main_v50 (F := Ideal) x4) := by
  funext i
  obtain ⟨p, q, rfl⟩ : ∃ (p : Fin 100000) (q : Fin 32), i = ix2 p q := ⟨i 0, i 1, eq_ix2 i⟩
  have l47 : ∀ k : Fin 64, lidx_main_v47 (ix2 p q) k = ix2 p k := fun k => funext fun a => Fin.ext (by match a with | ⟨0, _⟩ => rfl | ⟨1, _⟩ => rfl)
  have r47 : ∀ k : Fin 64, ridx_main_v47 (ix2 p q) k = ix2 k q := fun k => funext fun a => Fin.ext (by match a with | ⟨0, _⟩ => rfl | ⟨1, _⟩ => rfl)
  have l48 : ∀ k : Fin 64, lidx_main_v48 (ix2 p q) k = ix2 p k := fun k => funext fun a => Fin.ext (by match a with | ⟨0, _⟩ => rfl | ⟨1, _⟩ => rfl)
  have r48 : ∀ k : Fin 64, ridx_main_v48 (ix2 p q) k = ix2 k q := fun k => funext fun a => Fin.ext (by match a with | ⟨0, _⟩ => rfl | ⟨1, _⟩ => rfl)
  have e51 : idx_main_v51 (ix2 p q) = ix2 (0 : Fin 1) q := funext fun a => Fin.ext (by match a with | ⟨0, _⟩ => rfl | ⟨1, _⟩ => rfl)
  rw [val_main_v53_apply, val_main_v52_apply, val_main_v49_apply, val_main_v47_apply, val_main_v48_apply,
    val_main_v51_apply, val_main_call2_v0_apply, val_main_call2_cst_apply, Cert.Cheb.hidden_apply]
  generalize val_main_v46 (F := Ideal) x0 x1 = t
  generalize val_main_v50 (F := Ideal) x4 = b
  simp only [l47, r47, l48, r48, e51, Ideal.maximumf_def, Ideal.addf_def, Ideal.ofBits_def, Ideal.ofBits_zero_f32]
  rfl

/-- The fold of the float maximum from the bottom over a row is the row's maximum. -/
theorem fold_maximumf_eq_rowMax (z : Fin 10 → EReal) :
    (Finset.univ : Finset (Fin 10)).fold (FloatOps.maximumf (F := Ideal) (φ := .f32)) ⊥ z = Cert.Cheb.rowMax z := rfl

/-- The logits: stage 102 at entry `(p, k)` is the affine map of the hidden activations (stage 53), their propagated
    copy (stage 96) and the bias row (stage 100). -/
theorem logits_apply (x0 : (⟨S100000x64, .f32⟩ : BufTy).Contents (Elt Ideal)) (x1 : (⟨S2x3200000, .i32⟩ : BufTy).Contents (Elt Ideal))
    (x2 x3 : (⟨S64x32, .f32⟩ : BufTy).Contents (Elt Ideal)) (x4 : (⟨S32, .f32⟩ : BufTy).Contents (Elt Ideal))
    (x5 x6 : (⟨S32x10, .f32⟩ : BufTy).Contents (Elt Ideal)) (x7 : (⟨S10, .f32⟩ : BufTy).Contents (Elt Ideal)) (p : Fin 100000) (k : Fin 10) :
    val_main_v102 (F := Ideal) x0 x1 x2 x3 x4 x5 x6 x7 (ix2 p k)
      = Cert.Cheb.affineAt (R := 100000) (K := 32) (N := 10) (val_main_v53 (F := Ideal) x0 x1 x2 x3 x4)
          (val_main_v96 (F := Ideal) x0 x1 x2 x3 x4) x5 x6 (val_main_v100 (F := Ideal) x7) p k := by
  have l97 : ∀ j : Fin 32, lidx_main_v97 (ix2 p k) j = ix2 p j := fun j => funext fun a => Fin.ext (by match a with | ⟨0, _⟩ => rfl | ⟨1, _⟩ => rfl)
  have r97 : ∀ j : Fin 32, ridx_main_v97 (ix2 p k) j = ix2 j k := fun j => funext fun a => Fin.ext (by match a with | ⟨0, _⟩ => rfl | ⟨1, _⟩ => rfl)
  have l98 : ∀ j : Fin 32, lidx_main_v98 (ix2 p k) j = ix2 p j := fun j => funext fun a => Fin.ext (by match a with | ⟨0, _⟩ => rfl | ⟨1, _⟩ => rfl)
  have r98 : ∀ j : Fin 32, ridx_main_v98 (ix2 p k) j = ix2 j k := fun j => funext fun a => Fin.ext (by match a with | ⟨0, _⟩ => rfl | ⟨1, _⟩ => rfl)
  have e101 : idx_main_v101 (ix2 p k) = ix2 (0 : Fin 1) k := funext fun a => Fin.ext (by match a with | ⟨0, _⟩ => rfl | ⟨1, _⟩ => rfl)
  rw [val_main_v102_apply, val_main_v99_apply, val_main_v97_apply, val_main_v98_apply, val_main_v101_apply]
  generalize val_main_v53 (F := Ideal) x0 x1 x2 x3 x4 = h
  generalize val_main_v96 (F := Ideal) x0 x1 x2 x3 x4 = t
  generalize val_main_v100 (F := Ideal) x7 = b
  simp only [l97, r97, l98, r98, e101, Ideal.addf_def]
  rfl

/-- The row maximum: stage 2 of the log-softmax at row `p` is the maximum of the logits' row. The reduction folds the
    maximum from `−∞` over the row's ten coordinates, and the further maximum against `−∞` changes nothing. -/
theorem rowmax_apply (x0 : (⟨S100000x64, .f32⟩ : BufTy).Contents (Elt Ideal)) (x1 : (⟨S2x3200000, .i32⟩ : BufTy).Contents (Elt Ideal))
    (x2 x3 : (⟨S64x32, .f32⟩ : BufTy).Contents (Elt Ideal)) (x4 : (⟨S32, .f32⟩ : BufTy).Contents (Elt Ideal))
    (x5 x6 : (⟨S32x10, .f32⟩ : BufTy).Contents (Elt Ideal)) (x7 : (⟨S10, .f32⟩ : BufTy).Contents (Elt Ideal)) (p : Fin 100000) :
    val_main_call5_v2 (F := Ideal) x0 x1 x2 x3 x4 x5 x6 x7 (ix1 p)
      = Cert.Cheb.rowMax (fun k : Fin 10 => val_main_v102 (F := Ideal) x0 x1 x2 x3 x4 x5 x6 x7 (ix2 p k)) := by
  rw [val_main_call5_v2_apply, val_main_call5_v1_apply, val_main_call5_cst_0_apply]
  unfold val_main_call5_v0
  generalize val_main_v102 (F := Ideal) x0 x1 x2 x3 x4 x5 x6 x7 = z
  rw [Host.reduce_eq_fold_single (FloatOps.maximumf (F := Ideal) (φ := .f32)) z (val_main_call5_cst (F := Ideal))
    Gen.reducesTo_S100000x10_S100000_d1 (by decide) Gen.h_S_ (ix1 p), val_main_call5_cst_apply, Ideal.maximumf_def,
    Ideal.ofBits_def, Cert.Cheb.ofBits_negInf, Cert.Cheb.max_bot_left]
  refine Eq.trans ?_ (fold_maximumf_eq_rowMax _)
  exact congrArg (fun f : Fin 10 → EReal => Finset.fold (FloatOps.maximumf (F := Ideal) (φ := .f32)) ⊥ f Finset.univ)
    (funext fun k => congrArg z (funext fun a => Fin.ext (by match a with | ⟨0, _⟩ => rfl | ⟨1, _⟩ => rfl)))

/-- The row sum: stage 7 of the log-softmax at row `p` is the sum of the exponentials of the shifted logits. -/
theorem rowsum_apply (x0 : (⟨S100000x64, .f32⟩ : BufTy).Contents (Elt Ideal)) (x1 : (⟨S2x3200000, .i32⟩ : BufTy).Contents (Elt Ideal))
    (x2 x3 : (⟨S64x32, .f32⟩ : BufTy).Contents (Elt Ideal)) (x4 : (⟨S32, .f32⟩ : BufTy).Contents (Elt Ideal))
    (x5 x6 : (⟨S32x10, .f32⟩ : BufTy).Contents (Elt Ideal)) (x7 : (⟨S10, .f32⟩ : BufTy).Contents (Elt Ideal)) (p : Fin 100000) :
    val_main_call5_v7 (F := Ideal) x0 x1 x2 x3 x4 x5 x6 x7 (ix1 p)
      = ∑ k : Fin 10, Ideal.exp (val_main_v102 (F := Ideal) x0 x1 x2 x3 x4 x5 x6 x7 (ix2 p k)
          - val_main_call5_v2 (F := Ideal) x0 x1 x2 x3 x4 x5 x6 x7 (ix1 p)) := by
  have e7 : ∀ k : Fin 10, idx_main_call5_v7 (ix1 p) k = ix2 p k := fun k => funext fun a => Fin.ext (by match a with | ⟨0, _⟩ => rfl | ⟨1, _⟩ => rfl)
  have e4 : ∀ k : Fin 10, idx_main_call5_v4 (ix2 p k) = ix2 p (0 : Fin 1) := fun k => funext fun a => Fin.ext (by match a with | ⟨0, _⟩ => rfl | ⟨1, _⟩ => rfl)
  have e3 : idx_main_call5_v3 (ix2 p (0 : Fin 1)) = ix1 p := funext fun a => Fin.ext (by match a with | ⟨0, _⟩ => rfl)
  rw [val_main_call5_v7_apply, val_main_call5_cst_1_apply, Ideal.ofBits_def, Ideal.ofBits_zero_f32, zero_add]
  refine Finset.sum_congr rfl fun k _ => ?_
  rw [e7, val_main_call5_v6_apply, val_main_call5_v5_apply, val_main_call5_v4_apply, e4, val_main_call5_v3_apply, e3,
    Ideal.hostUnary_exp_def, Ideal.subf_def]

/-- The reference's log-probabilities are the output layer of the hidden activations (stage 53), their propagated copy
    (stage 96) and the bias as a one-row matrix (stage 100). At entry `(p, q)` the result is the logit minus the row's
    maximum minus the logarithm of the row's sum of shifted exponentials, each read off the lemmas above. -/
theorem ref_out (x0 : (⟨S100000x64, .f32⟩ : BufTy).Contents (Elt Ideal)) (x1 : (⟨S2x3200000, .i32⟩ : BufTy).Contents (Elt Ideal))
    (x2 x3 : (⟨S64x32, .f32⟩ : BufTy).Contents (Elt Ideal)) (x4 : (⟨S32, .f32⟩ : BufTy).Contents (Elt Ideal))
    (x5 x6 : (⟨S32x10, .f32⟩ : BufTy).Contents (Elt Ideal)) (x7 : (⟨S10, .f32⟩ : BufTy).Contents (Elt Ideal)) :
    val_main_v103 (F := Ideal) x0 x1 x2 x3 x4 x5 x6 x7
      = Cert.Cheb.out (R := 100000) (K := 32) (N := 10) (val_main_v53 (F := Ideal) x0 x1 x2 x3 x4) (val_main_v96 (F := Ideal) x0 x1 x2 x3 x4) x5 x6
          (val_main_v100 (F := Ideal) x7) := by
  funext i
  obtain ⟨p, q, rfl⟩ : ∃ (p : Fin 100000) (q : Fin 10), i = ix2 p q := ⟨i 0, i 1, eq_ix2 i⟩
  have e4 : idx_main_call5_v4 (ix2 p q) = ix2 p (0 : Fin 1) := funext fun a => Fin.ext (by match a with | ⟨0, _⟩ => rfl | ⟨1, _⟩ => rfl)
  have e3 : idx_main_call5_v3 (ix2 p (0 : Fin 1)) = ix1 p := funext fun a => Fin.ext (by match a with | ⟨0, _⟩ => rfl)
  have e10 : idx_main_call5_v10 (ix2 p q) = ix2 p (0 : Fin 1) := funext fun a => Fin.ext (by match a with | ⟨0, _⟩ => rfl | ⟨1, _⟩ => rfl)
  have e8 : idx_main_call5_v8 (ix2 p (0 : Fin 1)) = ix1 p := funext fun a => Fin.ext (by match a with | ⟨0, _⟩ => rfl)
  rw [val_main_v103_apply, val_main_call5_v10_apply, e10, val_main_call5_v9_apply, val_main_call5_v8_apply, e8, rowsum_apply,
    val_main_call5_v5_apply, val_main_call5_v4_apply, e4, val_main_call5_v3_apply, e3, rowmax_apply, Cert.Cheb.out_apply]
  simp only [logits_apply, Ideal.subf_def, Ideal.hostUnary_log_def]
  rfl

end Cert.RefValue

end
-- ==== Proof.KValue.lean ====
/-
  The kernel's two results as the reference's stages of the launch arguments.

  When the first dense step starts, its five operands are the features, their propagated copy (the reference's stage
  46), the two weight matrices and the bias as one row; the step leaves the hidden layer of them in its output array,
  which is the reference's stage 53. When the second step starts, its operands are those hidden activations, their
  propagated copy (stage 96), the second layer's weights and its bias as one row; it leaves the output layer of them,
  the reference's stage 103. A bias vector reshaped to one row and the same vector broadcast into one row are one
  matrix: both read the vector at the column.
-/
import proofs.«165284_j43061342110390_1_alg».proof.Proof.Gen.KernelIdeal.Frame
import proofs.«165284_j43061342110390_1_alg».proof.Proof.Arrays
import proofs.«165284_j43061342110390_1_alg».proof.Proof.KHost
import proofs.«165284_j43061342110390_1_alg».proof.Proof.RefValue
import Idealize.ShloMosaic.Lib.Pipeline.Value

set_option maxRecDepth 16384

noncomputable section

namespace Cert.KValue

open Cert.KernelIdeal Cert.KernelIdeal.Gen
open Idealize.ShloMosaic Idealize.ShloMosaic.TcCoe Idealize.SL.Sem
open Idealize.ShloMosaic.Pipeline (Dat)

/-- The first bias reshaped to one row is the vector broadcast into one row (the reference's stage 50): entry `(0, q)`
    of either is entry `q` of the vector. -/
theorem bias32_row (x : FVec Ideal S32 .f32) :
    (shapeCast S1x32 x shapeCasts_S32_S1x32 : FVec Ideal S1x32 .f32) = Cert.ReferenceIdeal.ReadP.val_main_v50 (F := Ideal) x := by
  funext i
  rw [Cert.ReferenceIdeal.ReadP.val_main_v50_apply]
  refine shapeCast_apply x shapeCasts_S32_S1x32 i _ ?_
  rw [Shape.rowMajor_val_one, Shape.rowMajor_val_two]
  have h0 : (i 0).val < 1 := (i 0).isLt
  show (i 1).val = (i 0).val * 32 + (i 1).val
  omega

/-- The second bias likewise (the reference's stage 100). -/
theorem bias10_row (x : FVec Ideal S10 .f32) :
    (shapeCast S1x10 x shapeCasts_S10_S1x10 : FVec Ideal S1x10 .f32) = Cert.ReferenceIdeal.ReadP.val_main_v100 (F := Ideal) x := by
  funext i
  rw [Cert.ReferenceIdeal.ReadP.val_main_v100_apply]
  refine shapeCast_apply x shapeCasts_S10_S1x10 i _ ?_
  rw [Shape.rowMajor_val_one, Shape.rowMajor_val_two]
  have h0 : (i 0).val < 1 := (i 0).isLt
  show (i 1).val = (i 0).val * 10 + (i 1).val
  omega

variable (m : (ℓ : Loc nD τ sig) → Buf (Elt Ideal) ℓ) (ρ : Dev nD → PrngReg)

/-- What the first dense step leaves in its output array: the reference's hidden activations of the launch arguments. -/
theorem hidden_stage (c : Dev nD) : W6 m ρ c (Proc.devRef .tc main_v48) = Cert.ReferenceIdeal.ReadP.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 5).trans ((Cert.Arrays.hidden_arr (V5 m ρ) c).trans ?_)
  show Cert.Cheb.hidden (R := 100000) (K := 64) (N := 32) (W5 m ρ c (Proc.devRef .tc main_arg0)) (W5 m ρ c (Proc.devRef .tc main_v46))
      (W5 m ρ c (Proc.devRef .tc main_arg2)) (W5 m ρ c (Proc.devRef .tc main_arg3)) (W5 m ρ c (Proc.devRef .tc main_v47)) = _
  rw [Cert.KHost.entry0_arg0, Cert.KHost.entry0_prop, Cert.KHost.entry0_arg2, Cert.KHost.entry0_arg3, Cert.KHost.entry0_bias,
    bias32_row, ← Cert.RefValue.ref_hidden]

/-- The hidden activations are still there when the program ends: the second step only reads them. -/
theorem hidden_kept (c : Dev nD) : W8 m ρ c (Proc.devRef .tc main_v48) = Cert.ReferenceIdeal.ReadP.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  calc W8 m ρ c (Proc.devRef .tc main_v48)
    _ = W7 m ρ c (Proc.devRef .tc main_v48) := (W8_arr m ρ c 0).trans (((dat1 (V7 m ρ) c).arrAt_in 0 rfl _).trans (A_eq1 (V7 m ρ) c 0))
    _ = W6 m ρ c (Proc.devRef .tc main_v48) := Cert.KHost.entry1_hidden m ρ c
    _ = _ := hidden_stage m ρ c

/-- What the second dense step leaves in its output array: the reference's log-probabilities of the launch arguments. -/
theorem out_stage (c : Dev nD) : W8 m ρ c (Proc.devRef .tc main_v63) = Cert.ReferenceIdeal.ReadP.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 5).trans ((Cert.Arrays.out_arr (V7 m ρ) c).trans ?_)
  show Cert.Cheb.out (R := 100000) (K := 32) (N := 10) (W7 m ρ c (Proc.devRef .tc main_v48)) (W7 m ρ c (Proc.devRef .tc main_v61))
      (W7 m ρ c (Proc.devRef .tc main_arg5)) (W7 m ρ c (Proc.devRef .tc main_arg6)) (W7 m ρ c (Proc.devRef .tc main_v62)) = _
  rw [Cert.KHost.entry1_prop m ρ c (hidden_stage m ρ c), Cert.KHost.entry1_hidden, hidden_stage, Cert.KHost.entry1_arg5,
    Cert.KHost.entry1_arg6, Cert.KHost.entry1_bias, bias10_row, ← Cert.RefValue.ref_out]

end Cert.KValue

end
-- ==== Proof.RefRun.lean ====
/-
  The reference program's run, read over its stages.

  The program is a straight line of 154 host operations, so after any execution each buffer holds the fold of the
  operations over the launch contents. The fold is read in three stretches. The first 73 operations leave the hidden
  activations at stage 53 of the arguments (the features propagated over the edges, two products, the bias, the
  maximum with zero) and the edge lists at stages 1 and 3. From any contents holding those values the next 60
  operations compute the edge weights anew and leave the propagated hidden activations at stage 96; from contents
  holding the hidden activations, their propagated copy and the second layer's weights and bias, the last 21
  operations (two products, the bias, the row-wise log-softmax) leave the log-probabilities at stage 103. No argument
  is written by any stretch. The log-softmax is a function the program calls: its values sit in buffers reached
  through references that carry the tensor's type, and contents moved to such a buffer's own type and back are the
  contents (`ofBuf_toBuf`), which is all that is needed to see through them.
-/
import proofs.«165284_j43061342110390_1_alg».proof.Proof.RefOps
import proofs.«165284_j43061342110390_1_alg».proof.Proof.RefRead
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo
open Cert.ReferenceIdeal.RunP Cert.ReferenceIdeal.ReadP

variable {F : FTy → Type} [FloatOps F]

/-- Contents moved to a typed reference's buffer type and back are the contents: the two transports are inverse. -/
theorem ofBuf_toBuf {sig : RefSig} {Val : EltTy → Type} {T : BufTy} (x : TRef sig T) (v : T.Contents Val) :
    x.ofBuf (x.toBuf v) = v := by
  obtain ⟨r, h, _, _⟩ := x
  subst h
  rfl

section Stretches

variable (V : Valuation τ sig (Elt F))

/-! ## The first stretch, from any contents `V` -/

set_option maxRecDepth 8192 in
set_option maxHeartbeats 40000000 in
/-- The hidden activations after the first stretch: stage 53 of the arguments as `V` holds them. -/
theorem firstHalf_hidden : after opsA V (Proc.devRef .tc main_v53)
    = val_main_v53 (F := F) (V (Proc.devRef .tc main_arg0)) (V (Proc.devRef .tc main_arg1)) (V (Proc.devRef .tc main_arg2)) (V (Proc.devRef .tc main_arg3)) (V (Proc.devRef .tc main_arg4)) := by
  unfold opsA
  after_results_simp
  rfl

set_option maxHeartbeats 40000000 in
/-- The edges' source rows after the first stretch: stage 1. -/
theorem firstHalf_src : after opsA V (Proc.devRef .tc main_v1) = val_main_v1 (F := F) (V (Proc.devRef .tc main_arg1)) := by
  unfold opsA
  after_results_simp
  rfl

set_option maxHeartbeats 40000000 in
/-- The edges' target rows after the first stretch: stage 3. -/
theorem firstHalf_dst : after opsA V (Proc.devRef .tc main_v3) = val_main_v3 (F := F) (V (Proc.devRef .tc main_arg1)) := by
  unfold opsA
  after_results_simp
  rfl

set_option maxHeartbeats 40000000 in
theorem firstHalf_arg0 : after opsA V (Proc.devRef .tc main_arg0) = V (Proc.devRef .tc main_arg0) := by
  unfold opsA
  after_results_simp
set_option maxHeartbeats 40000000 in
theorem firstHalf_arg1 : after opsA V (Proc.devRef .tc main_arg1) = V (Proc.devRef .tc main_arg1) := by
  unfold opsA
  after_results_simp
set_option maxHeartbeats 40000000 in
theorem firstHalf_arg2 : after opsA V (Proc.devRef .tc main_arg2) = V (Proc.devRef .tc main_arg2) := by
  unfold opsA
  after_results_simp
set_option maxHeartbeats 40000000 in
theorem firstHalf_arg3 : after opsA V (Proc.devRef .tc main_arg3) = V (Proc.devRef .tc main_arg3) := by
  unfold opsA
  after_results_simp
set_option maxHeartbeats 40000000 in
theorem firstHalf_arg4 : after opsA V (Proc.devRef .tc main_arg4) = V (Proc.devRef .tc main_arg4) := by
  unfold opsA
  after_results_simp
set_option maxHeartbeats 40000000 in
theorem firstHalf_arg5 : after opsA V (Proc.devRef .tc main_arg5) = V (Proc.devRef .tc main_arg5) := by
  unfold opsA
  after_results_simp
set_option maxHeartbeats 40000000 in
theorem firstHalf_arg6 : after opsA V (Proc.devRef .tc main_arg6) = V (Proc.devRef .tc main_arg6) := by
  unfold opsA
  after_results_simp
set_option maxHeartbeats 40000000 in
theorem firstHalf_arg7 : after opsA V (Proc.devRef .tc main_arg7) = V (Proc.devRef .tc main_arg7) := by
  unfold opsA
  after_results_simp

/-! ## The middle and the last stretch, from any contents `V` that hold the values they read -/

set_option maxRecDepth 8192 in
set_option maxHeartbeats 40000000 in
/-- The propagated hidden activations after the middle stretch: stage 96 of the arguments, whenever the contents it
    starts from hold the hidden activations and the two edge lists at their stages. The stretch computes the edge weights
    anew from the edge lists, gathers the hidden rows, weights them and adds them up per target row. -/
theorem middle_prop (x0 : (⟨S100000x64, .f32⟩ : BufTy).Contents (Elt F)) (x1 : (⟨S2x3200000, .i32⟩ : BufTy).Contents (Elt F))
    (x2 x3 : (⟨S64x32, .f32⟩ : BufTy).Contents (Elt F)) (x4 : (⟨S32, .f32⟩ : BufTy).Contents (Elt F))
    (hh : V (Proc.devRef .tc main_v53) = val_main_v53 (F := F) x0 x1 x2 x3 x4)
    (hs : V (Proc.devRef .tc main_v1) = val_main_v1 (F := F) x1) (hd : V (Proc.devRef .tc main_v3) = val_main_v3 (F := F) x1) :
    after opsB1 V (Proc.devRef .tc main_v96) = val_main_v96 (F := F) x0 x1 x2 x3 x4 := by
  unfold opsB1
  after_results_simp
  rw [hh, hs, hd]
  rfl

set_option maxHeartbeats 40000000 in
/-- The middle stretch writes neither the hidden activations nor the second layer's weights and bias. -/
theorem middle_hidden : after opsB1 V (Proc.devRef .tc main_v53) = V (Proc.devRef .tc main_v53) := by
  unfold opsB1
  after_results_simp
set_option maxHeartbeats 40000000 in
theorem middle_arg5 : after opsB1 V (Proc.devRef .tc main_arg5) = V (Proc.devRef .tc main_arg5) := by
  unfold opsB1
  after_results_simp
set_option maxHeartbeats 40000000 in
theorem middle_arg6 : after opsB1 V (Proc.devRef .tc main_arg6) = V (Proc.devRef .tc main_arg6) := by
  unfold opsB1
  after_results_simp
set_option maxHeartbeats 40000000 in
theorem middle_arg7 : after opsB1 V (Proc.devRef .tc main_arg7) = V (Proc.devRef .tc main_arg7) := by
  unfold opsB1
  after_results_simp

set_option maxRecDepth 8192 in
set_option maxHeartbeats 40000000 in
/-- The log-probabilities after the last stretch: stage 103 of the arguments, whenever the contents it starts from hold
    the hidden activations, their propagated copy and the second layer's weights and bias at their stages. The stretch is
    the two products, the bias and the row-wise log-softmax. -/
theorem last_out (x0 : (⟨S100000x64, .f32⟩ : BufTy).Contents (Elt F)) (x1 : (⟨S2x3200000, .i32⟩ : BufTy).Contents (Elt F))
    (x2 x3 : (⟨S64x32, .f32⟩ : BufTy).Contents (Elt F)) (x4 : (⟨S32, .f32⟩ : BufTy).Contents (Elt F))
    (x5 x6 : (⟨S32x10, .f32⟩ : BufTy).Contents (Elt F)) (x7 : (⟨S10, .f32⟩ : BufTy).Contents (Elt F))
    (hh : V (Proc.devRef .tc main_v53) = val_main_v53 (F := F) x0 x1 x2 x3 x4)
    (hp : V (Proc.devRef .tc main_v96) = val_main_v96 (F := F) x0 x1 x2 x3 x4)
    (h5 : V (Proc.devRef .tc main_arg5) = x5) (h6 : V (Proc.devRef .tc main_arg6) = x6) (h7 : V (Proc.devRef .tc main_arg7) = x7) :
    after opsB2 V (Proc.devRef .tc main_v103) = val_main_v103 (F := F) x0 x1 x2 x3 x4 x5 x6 x7 := by
  unfold opsB2
  after_results_simp
  rw [hh, hp, h5, h6, h7]
  simp only [ofBuf_toBuf]
  rfl

set_option maxHeartbeats 40000000 in
/-- The last stretch does not write the hidden activations. -/
theorem last_hidden : after opsB2 V (Proc.devRef .tc main_v53) = V (Proc.devRef .tc main_v53) := by
  unfold opsB2
  after_results_simp

/-! ## The two together: operations 74 to 154 -/

/-- The log-probabilities after operations 74 to 154: stage 103 of the arguments, whenever the contents they start from
    hold the hidden activations, the two edge lists and the second layer's weights and bias at their stages. -/
theorem secondHalf_out (x0 : (⟨S100000x64, .f32⟩ : BufTy).Contents (Elt F)) (x1 : (⟨S2x3200000, .i32⟩ : BufTy).Contents (Elt F))
    (x2 x3 : (⟨S64x32, .f32⟩ : BufTy).Contents (Elt F)) (x4 : (⟨S32, .f32⟩ : BufTy).Contents (Elt F))
    (x5 x6 : (⟨S32x10, .f32⟩ : BufTy).Contents (Elt F)) (x7 : (⟨S10, .f32⟩ : BufTy).Contents (Elt F))
    (hh : V (Proc.devRef .tc main_v53) = val_main_v53 (F := F) x0 x1 x2 x3 x4)
    (hs : V (Proc.devRef .tc main_v1) = val_main_v1 (F := F) x1) (hd : V (Proc.devRef .tc main_v3) = val_main_v3 (F := F) x1)
    (h5 : V (Proc.devRef .tc main_arg5) = x5) (h6 : V (Proc.devRef .tc main_arg6) = x6) (h7 : V (Proc.devRef .tc main_arg7) = x7) :
    after opsB V (Proc.devRef .tc main_v103) = val_main_v103 (F := F) x0 x1 x2 x3 x4 x5 x6 x7 := by
  rw [opsB_split, StableHlo.after_append]
  exact last_out _ x0 x1 x2 x3 x4 x5 x6 x7 ((middle_hidden V).trans hh) (middle_prop V x0 x1 x2 x3 x4 hh hs hd)
    ((middle_arg5 V).trans h5) ((middle_arg6 V).trans h6) ((middle_arg7 V).trans h7)

/-- Operations 74 to 154 do not write the hidden activations. -/
theorem secondHalf_hidden : after opsB V (Proc.devRef .tc main_v53) = V (Proc.devRef .tc main_v53) := by
  rw [opsB_split, StableHlo.after_append, last_hidden, middle_hidden]

end Stretches

/-! ## The run -/

set_option maxRecDepth 8192 in
set_option maxHeartbeats 61600000 in
/-- On every device, for any float values, from any memory with zero counters: every weakly fair execution of
    @main terminates with the log-probabilities at stage 103 and the hidden activations at stage 53 of the launch
    contents of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v103)
          = val_main_v103 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v53)
          = val_main_v53 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c main_v103).trans (by
          rw [ops_split, StableHlo.after_append]
          exact secondHalf_out _ _ _ _ _ _ _ _ _ (firstHalf_hidden _) (firstHalf_src _) (firstHalf_dst _)
            (firstHalf_arg5 _) (firstHalf_arg6 _) (firstHalf_arg7 _)),
       (h c main_v53).trans (by
          rw [ops_split, StableHlo.after_append, secondHalf_hidden]
          exact firstHalf_hidden _),
       (h c main_arg0).trans (by after_results_simp <;> rfl),
       (h c main_arg1).trans (by after_results_simp <;> rfl),
       (h c main_arg2).trans (by after_results_simp <;> rfl),
       (h c main_arg3).trans (by after_results_simp <;> rfl),
       (h c main_arg4).trans (by after_results_simp <;> rfl),
       (h c main_arg5).trans (by after_results_simp <;> rfl),
       (h c main_arg6).trans (by after_results_simp <;> rfl),
       (h c main_arg7).trans (by after_results_simp <;> rfl)⟩)
    (run_seq scopedRefs_eq scopedSems_eq defs main (fun _ => ops) main_eq (fun _ => ops_sub) m ρ)

end Cert.RefRun

end
-- ==== Proof.lean ====
/-
  The certificate of a two-layer graph network (a Chebyshev convolution with two terms per layer) against its jnp
  reference, over the extended reals.

  Each layer maps a feature array `x` and its propagated copy `t` — the sum, over the edges into a node, of the
  neighbours' rows weighted by the symmetric normalisation of the graph with self-loops removed — to
  `x · W₀ + t · W₁ + b`; the first layer ends in a maximum with zero, the second in the log-softmax of each row. The
  kernel's program computes the edge weights and each `t` with host operations and each layer's dense part in a
  pipelined region over twenty blocks of five thousand rows; the reference computes everything with host
  operations on the whole arrays, and the edge weights twice.

  At the ideal values a change of float format is the identity, a product into a zero accumulator and the host's
  product are the same sum over the shared axis, and a row's entries depend on that row of `x` and `t` only, so a block
  of the kernel's result is the block of the reference's (Proof/Spec.lean: the layers as formulas with the row count a
  parameter; Proof/HiddenBlock.lean, Proof/OutBlock.lean: what a region's body stores; Proof/Arrays.lean: the blocks
  tile the array; Proof/RefValue.lean: the reference's stages are the same formulas, its extra maximum of the row
  maximum with `−∞` changing nothing). The host operations around the regions are the reference's own, operation by
  operation, so each region's operands are the reference's stages of the launch arguments (Proof/KHost.lean,
  Proof/KValue.lean). The two runs: Proof/KRun.lean (the kernel's, its two results read off the last segment's
  contents) and Proof/RefRun.lean (the reference's, read over its stages in two stretches). No law used here needs
  finiteness, so the precondition is never opened.
-/
import proofs.«165284_j43061342110390_1_alg».proof.Defs
import proofs.«165284_j43061342110390_1_alg».proof.Proof.Gen.Kernel
import proofs.«165284_j43061342110390_1_alg».proof.Proof.Gen.Kernel.Frame
import proofs.«165284_j43061342110390_1_alg».proof.Proof.Gen.KernelIdeal
import proofs.«165284_j43061342110390_1_alg».proof.Proof.Gen.KernelIdeal.Frame
import proofs.«165284_j43061342110390_1_alg».proof.Proof.Gen.ReferenceIdeal
import proofs.«165284_j43061342110390_1_alg».proof.Proof.Gen.Pre_finite_inputs
import proofs.«165284_j43061342110390_1_alg».proof.Proof.KRun
import proofs.«165284_j43061342110390_1_alg».proof.Proof.KValue
import proofs.«165284_j43061342110390_1_alg».proof.Proof.RefRun
import Idealize.ShloMosaic.Adequacy
import Idealize.ShloMosaic.Init

noncomputable section

namespace Cert.Proof

open Idealize.ShloMosaic Idealize.SL.Sem

/-- The kernel's program, as printed, runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the two results dropped. -/
theorem frame_referenceIdeal : Cert.frame_ReferenceIdeal := fun m ρ _ =>
  (θ_run Cert.ReferenceIdeal.defs _ _).mono (fun _ h c => (h c).2.2) (Cert.RefRun.run (F := Ideal) m ρ)

/-- The idealized kernel's run with its two results named: the reference's log-probabilities (stage 103) and hidden
    activations (stage 53) of the kernel's own launch arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
      r.2.mem ((c.tc : Thread Cert.KernelIdeal.nD Cert.KernelIdeal.τ).loc Cert.KernelIdeal.main_v63)
          = Cert.ReferenceIdeal.ReadP.val_main_v103 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_v48)
          = Cert.ReferenceIdeal.ReadP.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono
    (fun _ h c => ⟨(h c).1.trans (Cert.KValue.out_stage m ρ c), (h c).2.1.trans (Cert.KValue.hidden_kept m ρ c), (h c).2.2⟩)
    (Cert.KernelIdeal.RunP.run (F := Ideal) m ρ)

/-- From memories agreeing on the arguments the two idealized programs end with equal results: both results are the
    reference's stages of the arguments, and the arguments agree. -/
theorem algebraic : Cert.algebraic_KernelIdeal_ReferenceIdeal := by
  intro m ρ m' ρ' _ hagree
  refine ⟨_, _, kernel_run m ρ, ?_⟩
  refine (θ_run Cert.ReferenceIdeal.defs _ _).mono (fun _ h c => ⟨(h c).1.trans ?_, (h c).2.1.trans ?_, (h c).2.2⟩)
    (Cert.RefRun.run (F := Ideal) m' ρ')
  · rw [(hagree c).1, (hagree c).2.1, (hagree c).2.2.1, (hagree c).2.2.2.1, (hagree c).2.2.2.2.1, (hagree c).2.2.2.2.2.1,
      (hagree c).2.2.2.2.2.2.1, (hagree c).2.2.2.2.2.2.2]
  · rw [(hagree c).1, (hagree c).2.1, (hagree c).2.2.1, (hagree c).2.2.2.1, (hagree c).2.2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
